-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x1024 : Shape := ⟨2, ![256, 1024]⟩
abbrev S128x1024 : Shape := ⟨2, ![128, 1024]⟩
abbrev S3072x3072 : Shape := ⟨2, ![3072, 3072]⟩
abbrev S3072 : Shape := ⟨1, ![3072]⟩
abbrev S8x3072 : Shape := ⟨2, ![8, 3072]⟩
abbrev S8 : Shape := ⟨1, ![8]⟩
abbrev S_ : Shape := ⟨0, ![]⟩

class Facts : Prop where
  bcast_S_S256x1024 : S_.BroadcastsInDim S256x1024 (![] : Fin 0 → Fin S256x1024.rank)
  reducesTo_S256x1024_S_d0_1 : S256x1024.ReducesTo [0, 1] S_
  h_S_ : 0 < S_.numel
  bcast_S_S128x1024 : S_.BroadcastsInDim S128x1024 (![] : Fin 0 → Fin S128x1024.rank)
  reducesTo_S128x1024_S_d0_1 : S128x1024.ReducesTo [0, 1] S_
  bcast_S_S3072x3072 : S_.BroadcastsInDim S3072x3072 (![] : Fin 0 → Fin S3072x3072.rank)
  reducesTo_S3072x3072_S_d0_1 : S3072x3072.ReducesTo [0, 1] S_
  bcast_S_S3072 : S_.BroadcastsInDim S3072 (![] : Fin 0 → Fin S3072.rank)
  reducesTo_S3072_S_d0 : S3072.ReducesTo [0] S_
  bcast_S_S8x3072 : S_.BroadcastsInDim S8x3072 (![] : Fin 0 → Fin S8x3072.rank)
  reducesTo_S8x3072_S_d0_1 : S8x3072.ReducesTo [0, 1] S_
  bcast_S_S8 : S_.BroadcastsInDim S8 (![] : Fin 0 → Fin S8.rank)
  reducesTo_S8_S_d0 : S8.ReducesTo [0] S_

variable [Facts]

def fn_part2 {F : FTy → Type} [FloatOps F] (main_arg7 : FVec F S8x3072 .f32) (main_arg8 : FVec F S8 .f32) (main_v33 : IVec S_ 1) : IVec S_ 1 :=
  let main_v34 : FVec F S8x3072 .f32 := Host.absf main_arg7
  let main_cst_12 : FVec F S_ .f32 := constant S_ .f32 0x7F800000#32
  let main_v35 : FVec F S8x3072 .f32 := broadcastInDim S8x3072 ![] bcast_S_S8x3072 main_cst_12
  let main_v36 : IVec S8x3072 1 := cmpf .olt main_v34 main_v35
  let main_c_13 : IVec S_ 1 := constantI S_ 1 1#1
  let main_v37 : IVec S_ 1 := (fun x v => Host.reduce IntOp.andi x v reducesTo_S8x3072_S_d0_1 h_S_) main_v36 main_c_13
  let main_v38 : IVec S_ 1 := andi main_v33 main_v37
  let main_v39 : FVec F S8 .f32 := Host.absf main_arg8
  let main_cst_14 : FVec F S_ .f32 := constant S_ .f32 0x7F800000#32
  let main_v40 : FVec F S8 .f32 := broadcastInDim S8 ![] bcast_S_S8 main_cst_14
  let main_v41 : IVec S8 1 := cmpf .olt main_v39 main_v40
  let main_c_15 : IVec S_ 1 := constantI S_ 1 1#1
  let main_v42 : IVec S_ 1 := (fun x v => Host.reduce IntOp.andi x v reducesTo_S8_S_d0 h_S_) main_v41 main_c_15
  let main_v43 : IVec S_ 1 := andi main_v38 main_v42
  main_v43

def fn_part1 {F : FTy → Type} [FloatOps F] (main_arg4 : FVec F S3072 .f32) (main_arg5 : FVec F S3072x3072 .f32) (main_arg6 : FVec F S3072 .f32) (main_arg7 : FVec F S8x3072 .f32) (main_arg8 : FVec F S8 .f32) (main_v13 : IVec S_ 1) (main_v16 : IVec S3072x3072 1) : IVec S_ 1 :=
  let main_c_5 : IVec S_ 1 := constantI S_ 1 1#1
  let main_v17 : IVec S_ 1 := (fun x v => Host.reduce IntOp.andi x v reducesTo_S3072x3072_S_d0_1 h_S_) main_v16 main_c_5
  let main_v18 : IVec S_ 1 := andi main_v13 main_v17
  let main_v19 : FVec F S3072 .f32 := Host.absf main_arg4
  let main_cst_6 : FVec F S_ .f32 := constant S_ .f32 0x7F800000#32
  let main_v20 : FVec F S3072 .f32 := broadcastInDim S3072 ![] bcast_S_S3072 main_cst_6
  let main_v21 : IVec S3072 1 := cmpf .olt main_v19 main_v20
  let main_c_7 : IVec S_ 1 := constantI S_ 1 1#1
  let main_v22 : IVec S_ 1 := (fun x v => Host.reduce IntOp.andi x v reducesTo_S3072_S_d0 h_S_) main_v21 main_c_7
  let main_v23 : IVec S_ 1 := andi main_v18 main_v22
  let main_v24 : FVec F S3072x3072 .f32 := Host.absf main_arg5
  let main_cst_8 : FVec F S_ .f32 := constant S_ .f32 0x7F800000#32
  let main_v25 : FVec F S3072x3072 .f32 := broadcastInDim S3072x3072 ![] bcast_S_S3072x3072 main_cst_8
  let main_v26 : IVec S3072x3072 1 := cmpf .olt main_v24 main_v25
  let main_c_9 : IVec S_ 1 := constantI S_ 1 1#1
  let main_v27 : IVec S_ 1 := (fun x v => Host.reduce IntOp.andi x v reducesTo_S3072x3072_S_d0_1 h_S_) main_v26 main_c_9
  let main_v28 : IVec S_ 1 := andi main_v23 main_v27
  let main_v29 : FVec F S3072 .f32 := Host.absf main_arg6
  let main_cst_10 : FVec F S_ .f32 := constant S_ .f32 0x7F800000#32
  let main_v30 : FVec F S3072 .f32 := broadcastInDim S3072 ![] bcast_S_S3072 main_cst_10
  let main_v31 : IVec S3072 1 := cmpf .olt main_v29 main_v30
  let main_c_11 : IVec S_ 1 := constantI S_ 1 1#1
  let main_v32 : IVec S_ 1 := (fun x v => Host.reduce IntOp.andi x v reducesTo_S3072_S_d0 h_S_) main_v31 main_c_11
  let main_v33 : IVec S_ 1 := andi main_v28 main_v32
  fn_part2 (F := F) main_arg7 main_arg8 main_v33

def fn {F : FTy → Type} [FloatOps F] (main_arg0 : FVec F S256x1024 .f32) (main_arg1 : FVec F S256x1024 .f32) (main_arg2 : FVec F S128x1024 .f32) (main_arg3 : FVec F S3072x3072 .f32) (main_arg4 : FVec F S3072 .f32) (main_arg5 : FVec F S3072x3072 .f32) (main_arg6 : FVec F S3072 .f32) (main_arg7 : FVec F S8x3072 .f32) (main_arg8 : FVec F S8 .f32) : IVec S_ 1 :=
  let main_v0 : FVec F S256x1024 .f32 := Host.absf main_arg0
  let main_cst : FVec F S_ .f32 := constant S_ .f32 0x7F800000#32
  let main_v1 : FVec F S256x1024 .f32 := broadcastInDim S256x1024 ![] bcast_S_S256x1024 main_cst
  let main_v2 : IVec S256x1024 1 := cmpf .olt main_v0 main_v1
  let main_c : IVec S_ 1 := constantI S_ 1 1#1
  let main_v3 : IVec S_ 1 := (fun x v => Host.reduce IntOp.andi x v reducesTo_S256x1024_S_d0_1 h_S_) main_v2 main_c
  let main_v4 : FVec F S256x1024 .f32 := Host.absf main_arg1
  let main_cst_0 : FVec F S_ .f32 := constant S_ .f32 0x7F800000#32
  let main_v5 : FVec F S256x1024 .f32 := broadcastInDim S256x1024 ![] bcast_S_S256x1024 main_cst_0
  let main_v6 : IVec S256x1024 1 := cmpf .olt main_v4 main_v5
  let main_c_1 : IVec S_ 1 := constantI S_ 1 1#1
  let main_v7 : IVec S_ 1 := (fun x v => Host.reduce IntOp.andi x v reducesTo_S256x1024_S_d0_1 h_S_) main_v6 main_c_1
  let main_v8 : IVec S_ 1 := andi main_v3 main_v7
  let main_v9 : FVec F S128x1024 .f32 := Host.absf main_arg2
  let main_cst_2 : FVec F S_ .f32 := constant S_ .f32 0x7F800000#32
  let main_v10 : FVec F S128x1024 .f32 := broadcastInDim S128x1024 ![] bcast_S_S128x1024 main_cst_2
  let main_v11 : IVec S128x1024 1 := cmpf .olt main_v9 main_v10
  let main_c_3 : IVec S_ 1 := constantI S_ 1 1#1
  let main_v12 : IVec S_ 1 := (fun x v => Host.reduce IntOp.andi x v reducesTo_S128x1024_S_d0_1 h_S_) main_v11 main_c_3
  let main_v13 : IVec S_ 1 := andi main_v8 main_v12
  let main_v14 : FVec F S3072x3072 .f32 := Host.absf main_arg3
  let main_cst_4 : FVec F S_ .f32 := constant S_ .f32 0x7F800000#32
  let main_v15 : FVec F S3072x3072 .f32 := broadcastInDim S3072x3072 ![] bcast_S_S3072x3072 main_cst_4
  let main_v16 : IVec S3072x3072 1 := cmpf .olt main_v14 main_v15
  fn_part1 (F := F) main_arg4 main_arg5 main_arg6 main_arg7 main_arg8 main_v13 main_v16
-- ==== Kernel.lean ====
abbrev S256x1024 : Shape := ⟨2, ![256, 1024]⟩
abbrev S128x1024 : Shape := ⟨2, ![128, 1024]⟩
abbrev S3072x3072 : Shape := ⟨2, ![3072, 3072]⟩
abbrev S3072 : Shape := ⟨1, ![3072]⟩
abbrev S8x3072 : Shape := ⟨2, ![8, 3072]⟩
abbrev S8 : Shape := ⟨1, ![8]⟩
abbrev S3072x8 : Shape := ⟨2, ![3072, 8]⟩
abbrev S256x128x3072 : Shape := ⟨3, ![256, 128, 3072]⟩
abbrev S8x1024 : Shape := ⟨2, ![8, 1024]⟩
abbrev S32x1024 : Shape := ⟨2, ![32, 1024]⟩
abbrev S8x32x3072 : Shape := ⟨3, ![8, 32, 3072]⟩
abbrev S8x2048 : Shape := ⟨2, ![8, 2048]⟩
abbrev S8x1x2048 : Shape := ⟨3, ![8, 1, 2048]⟩
abbrev S8x32x2048 : Shape := ⟨3, ![8, 32, 2048]⟩
abbrev S1x32x1024 : Shape := ⟨3, ![1, 32, 1024]⟩
abbrev S8x32x1024 : Shape := ⟨3, ![8, 32, 1024]⟩
abbrev S256x3072 : Shape := ⟨2, ![256, 3072]⟩
abbrev S1x3072 : Shape := ⟨2, ![1, 3072]⟩
abbrev S256x128x8 : Shape := ⟨3, ![256, 128, 8]⟩
abbrev S8x32x8 : Shape := ⟨3, ![8, 32, 8]⟩
abbrev S256x8 : Shape := ⟨2, ![256, 8]⟩
abbrev S1x8 : Shape := ⟨2, ![1, 8]⟩

abbrev nBuf : Space → Nat
  | .hbm => 17
  | .vmem => 18
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S128x1024, .f32⟩
  | .hbm, ⟨3, _⟩ => ⟨S3072x3072, .f32⟩
  | .hbm, ⟨4, _⟩ => ⟨S3072, .f32⟩
  | .hbm, ⟨5, _⟩ => ⟨S3072x3072, .f32⟩
  | .hbm, ⟨6, _⟩ => ⟨S3072, .f32⟩
  | .hbm, ⟨7, _⟩ => ⟨S8x3072, .f32⟩
  | .hbm, ⟨8, _⟩ => ⟨S8, .f32⟩
  | .hbm, ⟨9, _⟩ => ⟨S3072x3072, .f32⟩
  | .hbm, ⟨10, _⟩ => ⟨S3072x3072, .bf16⟩
  | .hbm, ⟨11, _⟩ => ⟨S3072x3072, .f32⟩
  | .hbm, ⟨12, _⟩ => ⟨S3072x3072, .bf16⟩
  | .hbm, ⟨13, _⟩ => ⟨S3072x8, .f32⟩
  | .hbm, ⟨14, _⟩ => ⟨S3072x8, .bf16⟩
  | .hbm, ⟨15, _⟩ => ⟨S256x128x3072, .bf16⟩
  | .hbm, ⟨16, _⟩ => ⟨S256x128x8, .f32⟩
  | .local _ .vmem, ⟨0, _⟩ => ⟨S8x1024, .f32⟩
  | .local _ .vmem, ⟨1, _⟩ => ⟨S8x1024, .f32⟩
  | .local _ .vmem, ⟨2, _⟩ => ⟨S8x1024, .f32⟩
  | .local _ .vmem, ⟨3, _⟩ => ⟨S8x1024, .f32⟩
  | .local _ .vmem, ⟨4, _⟩ => ⟨S32x1024, .f32⟩
  | .local _ .vmem, ⟨5, _⟩ => ⟨S32x1024, .f32⟩
  | .local _ .vmem, ⟨6, _⟩ => ⟨S3072x3072, .bf16⟩
  | .local _ .vmem, ⟨7, _⟩ => ⟨S3072, .f32⟩
  | .local _ .vmem, ⟨8, _⟩ => ⟨S8x32x3072, .bf16⟩
  | .local _ .vmem, ⟨9, _⟩ => ⟨S8x32x3072, .bf16⟩
  | .local _ .vmem, ⟨10, _⟩ => ⟨S8x32x3072, .bf16⟩
  | .local _ .vmem, ⟨11, _⟩ => ⟨S8x32x3072, .bf16⟩
  | .local _ .vmem, ⟨12, _⟩ => ⟨S3072x3072, .bf16⟩
  | .local _ .vmem, ⟨13, _⟩ => ⟨S3072, .f32⟩
  | .local _ .vmem, ⟨14, _⟩ => ⟨S3072x8, .bf16⟩
  | .local _ .vmem, ⟨15, _⟩ => ⟨S8, .f32⟩
  | .local _ .vmem, ⟨16, _⟩ => ⟨S8x32x8, .f32⟩
  | .local _ .vmem, ⟨17, _⟩ => ⟨S8x32x8, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨2, ![32, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S32x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S3072x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S8x32x3072 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨2, ![32, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S8x32x3072 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S3072x3072 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S3072 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S3072x8 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S8 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S8x32x8 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

class Facts₀ : Prop where
  transposes_S3072x3072_S3072x3072_1_0 : S3072x3072.Transposes [1, 0] S3072x3072
  bitsLt_bf16_f32 : FTy.bits .bf16 < FTy.bits .f32
  transposes_S8x3072_S3072x8_1_0 : S8x3072.Transposes [1, 0] S3072x8
  inb_S8x1024_S8x1024_0_0 : ∀ a, (![0, 0] : Fin 2 → Nat) a + S8x1024.size a ≤ S8x1024.size a
  h_S8x1024 : 0 < S8x1024.numel
  inb_S32x1024_S32x1024_0_0 : ∀ a, (![0, 0] : Fin 2 → Nat) a + S32x1024.size a ≤ S32x1024.size a
  h_S32x1024 : 0 < S32x1024.numel
  concatenates_S8x1024_S8x1024_S8x2048_d1 : Shape.Concatenates [S8x1024, S8x1024] S8x2048 1
  shapeCasts_S8x2048_S8x1x2048 : S8x2048.ShapeCasts S8x1x2048
  shapeCasts_S8x1x2048_S8x1x2048 : S8x1x2048.ShapeCasts S8x1x2048
  broadcasts_S8x1x2048_S8x32x2048 : S8x1x2048.Broadcasts S8x32x2048
  shapeCasts_S32x1024_S1x32x1024 : S32x1024.ShapeCasts S1x32x1024
  shapeCasts_S1x32x1024_S1x32x1024 : S1x32x1024.ShapeCasts S1x32x1024
  broadcasts_S1x32x1024_S8x32x1024 : S1x32x1024.Broadcasts S8x32x1024
  concatenates_S8x32x2048_S8x32x1024_S8x32x3072_d2 : Shape.Concatenates [S8x32x2048, S8x32x1024] S8x32x3072 2
  shapeCasts_S8x32x3072_S256x3072 : S8x32x3072.ShapeCasts S256x3072
  inb_S3072x3072_S3072x3072_0_0 : ∀ a, (![0, 0] : Fin 2 → Nat) a + S3072x3072.size a ≤ S3072x3072.size a
  h_S3072x3072 : 0 < S3072x3072.numel
  shapeCasts_S3072x3072_S3072x3072 : S3072x3072.ShapeCasts S3072x3072
  inb_S3072_S3072_0 : ∀ a, (![0] : Fin 1 → Nat) a + S3072.size a ≤ S3072.size a
  h_S3072 : 0 < S3072.numel
  shapeCasts_S3072_S1x3072 : S3072.ShapeCasts S1x3072
  broadcasts_S1x3072_S256x3072 : S1x3072.Broadcasts S256x3072
  shapeCasts_S256x3072_S8x32x3072 : S256x3072.ShapeCasts S8x32x3072
  inb_S8x32x3072_S8x32x3072_0_0_0 : ∀ a, (![0, 0, 0] : Fin 3 → Nat) a + S8x32x3072.size a ≤ S8x32x3072.size a
  h_S8x32x3072 : 0 < S8x32x3072.numel
  packedbf16_S8x32x3072_S8x32x3072_0_0_0 : (Rect.unit (s := S8x32x3072) ![0, 0, 0] S8x32x3072.size inb_S8x32x3072_S8x32x3072_0_0_0).PackedRows (EltTy.packing .bf16)
  shapeCasts_S8x32x3072_S8x32x3072 : S8x32x3072.ShapeCasts S8x32x3072
  inb_S3072x8_S3072x8_0_0 : ∀ a, (![0, 0] : Fin 2 → Nat) a + S3072x8.size a ≤ S3072x8.size a
  h_S3072x8 : 0 < S3072x8.numel
  shapeCasts_S3072x8_S3072x8 : S3072x8.ShapeCasts S3072x8
  inb_S8_S8_0 : ∀ a, (![0] : Fin 1 → Nat) a + S8.size a ≤ S8.size a
  h_S8 : 0 < S8.numel
  shapeCasts_S8_S1x8 : S8.ShapeCasts S1x8
  broadcasts_S1x8_S256x8 : S1x8.Broadcasts S256x8
  shapeCasts_S256x8_S8x32x8 : S256x8.ShapeCasts S8x32x8
  inb_S8x32x8_S8x32x8_0_0_0 : ∀ a, (![0, 0, 0] : Fin 3 → Nat) a + S8x32x8.size a ≤ S8x32x8.size a
  h_S8x32x8 : 0 < S8x32x8.numel
  dot_S256x3072_S3072x3072_S256x3072_1_0_0_1_n_n_wf : DotDims.WF S256x3072 S3072x3072 S256x3072 [1] [0] [0] [1] [] []
  dot_S256x3072_S3072x8_S256x8_1_0_0_1_n_n_wf : DotDims.WF S256x3072 S3072x8 S256x8 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x1024.size a ≤ S256x1024.size a
  hwx0_0 : ∀ i : grid0.Coords, EltTy.bits .f32 = 32 ∨ (Rect.block (s := S256x1024) S8x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x1024.size a ≤ S256x1024.size a
  hwx0_1 : ∀ i : grid0.Coords, EltTy.bits .f32 = 32 ∨ (Rect.block (s := S256x1024) S8x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x1024.size a ≤ S128x1024.size a
  hwx0_2 : ∀ i : grid0.Coords, EltTy.bits .f32 = 32 ∨ (Rect.block (s := S128x1024) S32x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S3072x3072.size a ≤ S3072x3072.size a
  hwx0_3 : ∀ i : grid0.Coords, EltTy.bits .bf16 = 32 ∨ (Rect.block (s := S3072x3072) S3072x3072.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S3072.size a ≤ S3072.size a
  hwx0_4 : ∀ i : grid0.Coords, EltTy.bits .f32 = 32 ∨ (Rect.block (s := S3072) S3072.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8x32x3072.size a ≤ S256x128x3072.size a
  hwx0_5 : ∀ i : grid0.Coords, EltTy.bits .bf16 = 32 ∨ (Rect.block (s := S256x128x3072) S8x32x3072.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8x32x3072.size a ≤ S256x128x3072.size a
  hwx1_0 : ∀ i : grid1.Coords, EltTy.bits .bf16 = 32 ∨ (Rect.block (s := S256x128x3072) S8x32x3072.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S3072x3072.size a ≤ S3072x3072.size a
  hwx1_1 : ∀ i : grid1.Coords, EltTy.bits .bf16 = 32 ∨ (Rect.block (s := S3072x3072) S3072x3072.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S3072.size a ≤ S3072.size a
  hwx1_2 : ∀ i : grid1.Coords, EltTy.bits .f32 = 32 ∨ (Rect.block (s := S3072) S3072.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S3072x8.size a ≤ S3072x8.size a
  hwx1_3 : ∀ i : grid1.Coords, EltTy.bits .bf16 = 32 ∨ (Rect.block (s := S3072x8) S3072x8.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S8.size a ≤ S8.size a
  hwx1_4 : ∀ i : grid1.Coords, EltTy.bits .f32 = 32 ∨ (Rect.block (s := S8) S8.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S8x32x8.size a ≤ S256x128x8.size a
  hwx1_5 : ∀ i : grid1.Coords, EltTy.bits .f32 = 32 ∨ (Rect.block (s := S256x128x8) S8x32x8.size (cc1_transform_5 i) (hinb1_5 i)).WholeWords (EltTy.packing .f32)

variable [Facts₀]

def dot_S256x3072_S3072x3072_S256x3072_1_0_0_1_n_n : DotDims S256x3072 S3072x3072 S256x3072 where
  lhsContracting := [1]
  rhsContracting := [0]
  lhsNonContracting := [0]
  rhsNonContracting := [1]
  lhsBatch := []
  rhsBatch := []
  wf := dot_S256x3072_S3072x3072_S256x3072_1_0_0_1_n_n_wf
def dot_S256x3072_S3072x8_S256x8_1_0_0_1_n_n : DotDims S256x3072 S3072x8 S256x8 where
  lhsContracting := [1]
  rhsContracting := [0]
  lhsNonContracting := [0]
  rhsNonContracting := [1]
  lhsBatch := []
  rhsBatch := []
  wf := dot_S256x3072_S3072x8_S256x8_1_0_0_1_n_n_wf

abbrev win0_0 : Pipeline.Window sig grid0 :=
  Pipeline.Window.ofSpec (Memref.whole main_arg0) S8x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S32x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S3072x3072.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S3072.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S8x32x3072.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v6) S8x32x3072.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S3072x3072.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S3072.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v5) S3072x8.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S8.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v7) S8x32x8.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S256x1024 : Shape := ⟨2, ![256, 1024]⟩
abbrev S128x1024 : Shape := ⟨2, ![128, 1024]⟩
abbrev S3072x3072 : Shape := ⟨2, ![3072, 3072]⟩
abbrev S3072 : Shape := ⟨1, ![3072]⟩
abbrev S8x3072 : Shape := ⟨2, ![8, 3072]⟩
abbrev S8 : Shape := ⟨1, ![8]⟩
abbrev S256x2048 : Shape := ⟨2, ![256, 2048]⟩
abbrev S256x1x2048 : Shape := ⟨3, ![256, 1, 2048]⟩
abbrev S256x128x2048 : Shape := ⟨3, ![256, 128, 2048]⟩
abbrev S1x128x1024 : Shape := ⟨3, ![1, 128, 1024]⟩
abbrev S256x128x1024 : Shape := ⟨3, ![256, 128, 1024]⟩
abbrev S256x128x3072 : Shape := ⟨3, ![256, 128, 3072]⟩
abbrev S1x1x3072 : Shape := ⟨3, ![1, 1, 3072]⟩
abbrev S256x128x8 : Shape := ⟨3, ![256, 128, 8]⟩
abbrev S1x1x8 : Shape := ⟨3, ![1, 1, 8]⟩

abbrev nBuf : Space → Nat
  | .hbm => 29
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S128x1024, .f32⟩
  | .hbm, ⟨3, _⟩ => ⟨S3072x3072, .f32⟩
  | .hbm, ⟨4, _⟩ => ⟨S3072, .f32⟩
  | .hbm, ⟨5, _⟩ => ⟨S3072x3072, .f32⟩
  | .hbm, ⟨6, _⟩ => ⟨S3072, .f32⟩
  | .hbm, ⟨7, _⟩ => ⟨S8x3072, .f32⟩
  | .hbm, ⟨8, _⟩ => ⟨S8, .f32⟩
  | .hbm, ⟨9, _⟩ => ⟨S256x1024, .f32⟩
  | .hbm, ⟨10, _⟩ => ⟨S256x1024, .f32⟩
  | .hbm, ⟨11, _⟩ => ⟨S256x2048, .f32⟩
  | .hbm, ⟨12, _⟩ => ⟨S256x1x2048, .f32⟩
  | .hbm, ⟨13, _⟩ => ⟨S256x128x2048, .f32⟩
  | .hbm, ⟨14, _⟩ => ⟨S1x128x1024, .f32⟩
  | .hbm, ⟨15, _⟩ => ⟨S256x128x1024, .f32⟩
  | .hbm, ⟨16, _⟩ => ⟨S256x128x3072, .f32⟩
  | .hbm, ⟨17, _⟩ => ⟨S256x128x3072, .f32⟩
  | .hbm, ⟨18, _⟩ => ⟨S1x1x3072, .f32⟩
  | .hbm, ⟨19, _⟩ => ⟨S256x128x3072, .f32⟩
  | .hbm, ⟨20, _⟩ => ⟨S256x128x3072, .f32⟩
  | .hbm, ⟨21, _⟩ => ⟨S256x128x3072, .f32⟩
  | .hbm, ⟨22, _⟩ => ⟨S1x1x3072, .f32⟩
  | .hbm, ⟨23, _⟩ => ⟨S256x128x3072, .f32⟩
  | .hbm, ⟨24, _⟩ => ⟨S256x128x3072, .f32⟩
  | .hbm, ⟨25, _⟩ => ⟨S256x128x8, .f32⟩
  | .hbm, ⟨26, _⟩ => ⟨S1x1x8, .f32⟩
  | .hbm, ⟨27, _⟩ => ⟨S256x128x8, .f32⟩
  | .hbm, ⟨28, _⟩ => ⟨S256x128x8, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩

abbrev nD : Nat := 1
abbrev τ : Topo := Topo.v7x

variable {F : FTy → Type} [FloatOps F]

class Facts₀ : Prop where
  concatenates_S256x1024_S256x1024_S256x2048_d1 : Shape.Concatenates [S256x1024, S256x1024] S256x2048 1
  bcast_S256x2048_S256x1x2048_0_2 : S256x2048.BroadcastsInDim S256x1x2048 (![0, 2] : Fin 2 → Fin S256x1x2048.rank)
  bcast_S256x1x2048_S256x128x2048_0_1_2 : S256x1x2048.BroadcastsInDim S256x128x2048 (![0, 1, 2] : Fin 3 → Fin S256x128x2048.rank)
  bcast_S128x1024_S1x128x1024_1_2 : S128x1024.BroadcastsInDim S1x128x1024 (![1, 2] : Fin 2 → Fin S1x128x1024.rank)
  bcast_S1x128x1024_S256x128x1024_0_1_2 : S1x128x1024.BroadcastsInDim S256x128x1024 (![0, 1, 2] : Fin 3 → Fin S256x128x1024.rank)
  concatenates_S256x128x2048_S256x128x1024_S256x128x3072_d2 : Shape.Concatenates [S256x128x2048, S256x128x1024] S256x128x3072 2
  bcast_S3072_S1x1x3072_2 : S3072.BroadcastsInDim S1x1x3072 (![2] : Fin 1 → Fin S1x1x3072.rank)
  bcast_S1x1x3072_S256x128x3072_0_1_2 : S1x1x3072.BroadcastsInDim S256x128x3072 (![0, 1, 2] : Fin 3 → Fin S256x128x3072.rank)
  bcast_S8_S1x1x8_2 : S8.BroadcastsInDim S1x1x8 (![2] : Fin 1 → Fin S1x1x8.rank)
  bcast_S1x1x8_S256x128x8_0_1_2 : S1x1x8.BroadcastsInDim S256x128x8 (![0, 1, 2] : Fin 3 → Fin S256x128x8.rank)
  dot_S256x128x3072_S3072x3072_S256x128x3072_2_1_01_0_n_n_wf : DotDims.WF S256x128x3072 S3072x3072 S256x128x3072 [2] [1] [0, 1] [0] [] []
  dot_S256x128x3072_S8x3072_S256x128x8_2_1_01_0_n_n_wf : DotDims.WF S256x128x3072 S8x3072 S256x128x8 [2] [1] [0, 1] [0] [] []

variable [Facts₀]

def dot_S256x128x3072_S3072x3072_S256x128x3072_2_1_01_0_n_n : DotDims S256x128x3072 S3072x3072 S256x128x3072 where
  lhsContracting := [2]
  rhsContracting := [1]
  lhsNonContracting := [0, 1]
  rhsNonContracting := [0]
  lhsBatch := []
  rhsBatch := []
  wf := dot_S256x128x3072_S3072x3072_S256x128x3072_2_1_01_0_n_n_wf
def dot_S256x128x3072_S8x3072_S256x128x8_2_1_01_0_n_n : DotDims S256x128x3072 S8x3072 S256x128x8 where
  lhsContracting := [2]
  rhsContracting := [1]
  lhsNonContracting := [0, 1]
  rhsNonContracting := [0]
  lhsBatch := []
  rhsBatch := []
  wf := dot_S256x128x3072_S8x3072_S256x128x8_2_1_01_0_n_n_wf

class Facts : Prop extends Facts₀ where

variable [Facts]
-- ==== Proof.PairMlp.lean ====
/-
  The function both programs compute, over the extended reals.

  For text rows a, b : [T, 1024] and user rows u : [U, 1024], the feature vector of the pair (t, q) is the
  concatenation  x[t, q, ·] = (min(a[t], b[t]), max(a[t], b[t]), u[q]),  of length 3072. An affine layer with weights
  w : [N, K] and bias β : [N] sends y : [T, U, K] to  (∑ₖ y[t, q, k] · w[n, k]) + β[n].  The result is three such layers
  applied to the features. A layer's value at a pair depends on that pair's row of its input only, and the features at a
  pair on that pair's text and user rows only: a tile of pairs can be computed from the tiles' rows alone.
-/
import Idealize.ShloMosaic.PureOps.Ideal
import Idealize.ShloMosaic.Lib.ValueIdx

noncomputable section

open scoped BigOperators

namespace Cert.PairMlp

open Idealize.ShloMosaic Idealize.ShloMosaic.ValueIdx

/-- The features of the pair (t, q): the elementwise minimum of the two text rows, then their elementwise maximum, then
    the user row. -/
def feat {T U : Nat} (a b : (⟨2, ![T, 1024]⟩ : Shape).Idx → EReal) (u : (⟨2, ![U, 1024]⟩ : Shape).Idx → EReal) :
    (⟨3, ![T, U, 3072]⟩ : Shape).Idx → EReal := fun i =>
  if h1 : (i 2).val < 1024 then
    min (a (ix2 (i 0) ⟨(i 2).val, h1⟩)) (b (ix2 (i 0) ⟨(i 2).val, h1⟩))
  else if h2 : (i 2).val < 2048 then
    max (a (ix2 (i 0) ⟨(i 2).val - 1024, by omega⟩)) (b (ix2 (i 0) ⟨(i 2).val - 1024, by omega⟩))
  else
    u (ix2 (i 1) ⟨(i 2).val - 2048, by have h3 : (i 2).val < 3072 := (i 2).isLt; omega⟩)

/-- An affine layer, the weights stored [N, K]: row n holds the weights of output n. -/
def affine {T U K N : Nat} (y : (⟨3, ![T, U, K]⟩ : Shape).Idx → EReal) (w : (⟨2, ![N, K]⟩ : Shape).Idx → EReal)
    (β : (⟨1, ![N]⟩ : Shape).Idx → EReal) : (⟨3, ![T, U, N]⟩ : Shape).Idx → EReal := fun i =>
  (∑ k : Fin K, y (ix3 (i 0) (i 1) k) * w (ix2 (i 2) k)) + β (ix1 (i 2))

/-- The same layer, the weights stored transposed, [K, N]. -/
def affineT {T U K N : Nat} (y : (⟨3, ![T, U, K]⟩ : Shape).Idx → EReal) (wt : (⟨2, ![K, N]⟩ : Shape).Idx → EReal)
    (β : (⟨1, ![N]⟩ : Shape).Idx → EReal) : (⟨3, ![T, U, N]⟩ : Shape).Idx → EReal := fun i =>
  (∑ k : Fin K, y (ix3 (i 0) (i 1) k) * wt (ix2 k (i 2))) + β (ix1 (i 2))

/-- A layer over transposed weights is the layer over the weights. -/
theorem affineT_eq_affine {T U K N : Nat} (y : (⟨3, ![T, U, K]⟩ : Shape).Idx → EReal)
    (wt : (⟨2, ![K, N]⟩ : Shape).Idx → EReal) (w : (⟨2, ![N, K]⟩ : Shape).Idx → EReal)
    (β : (⟨1, ![N]⟩ : Shape).Idx → EReal) (h : ∀ (k : Fin K) (n : Fin N), wt (ix2 k n) = w (ix2 n k)) :
    affineT y wt β = affine y w β := by
  funext i
  unfold affineT affine
  exact congrArg (· + β (ix1 (i 2))) (Finset.sum_congr rfl fun k _ => by rw [h k (i 2)])

/-- The three layers on the features of every pair of the 256 text rows and 128 user rows. -/
def mlp (a b : (⟨2, ![256, 1024]⟩ : Shape).Idx → EReal) (u : (⟨2, ![128, 1024]⟩ : Shape).Idx → EReal)
    (w1 : (⟨2, ![3072, 3072]⟩ : Shape).Idx → EReal) (β1 : (⟨1, ![3072]⟩ : Shape).Idx → EReal)
    (w2 : (⟨2, ![3072, 3072]⟩ : Shape).Idx → EReal) (β2 : (⟨1, ![3072]⟩ : Shape).Idx → EReal)
    (w3 : (⟨2, ![8, 3072]⟩ : Shape).Idx → EReal) (β3 : (⟨1, ![8]⟩ : Shape).Idx → EReal) :
    (⟨3, ![256, 128, 8]⟩ : Shape).Idx → EReal :=
  affine (affine (affine (feat a b u) w1 β1) w2 β2) w3 β3

/-- Two stages make the three layers: a first stage leaves the first layer, over transposed weights, of the features; a
    second stage applies layers two and three, over transposed weights, to what the first left. The primed arrays are
    what each stage finds in place of the inputs. -/
theorem two_stage
    (a b : (⟨2, ![256, 1024]⟩ : Shape).Idx → EReal) (u : (⟨2, ![128, 1024]⟩ : Shape).Idx → EReal)
    (w1 : (⟨2, ![3072, 3072]⟩ : Shape).Idx → EReal) (β1 : (⟨1, ![3072]⟩ : Shape).Idx → EReal)
    (w2 : (⟨2, ![3072, 3072]⟩ : Shape).Idx → EReal) (β2 : (⟨1, ![3072]⟩ : Shape).Idx → EReal)
    (w3 : (⟨2, ![8, 3072]⟩ : Shape).Idx → EReal) (β3 : (⟨1, ![8]⟩ : Shape).Idx → EReal)
    (a' b' : (⟨2, ![256, 1024]⟩ : Shape).Idx → EReal) (u' : (⟨2, ![128, 1024]⟩ : Shape).Idx → EReal)
    (w1t : (⟨2, ![3072, 3072]⟩ : Shape).Idx → EReal) (β1' : (⟨1, ![3072]⟩ : Shape).Idx → EReal)
    (y : (⟨3, ![256, 128, 3072]⟩ : Shape).Idx → EReal)
    (w2t : (⟨2, ![3072, 3072]⟩ : Shape).Idx → EReal) (β2' : (⟨1, ![3072]⟩ : Shape).Idx → EReal)
    (w3t : (⟨2, ![3072, 8]⟩ : Shape).Idx → EReal) (β3' : (⟨1, ![8]⟩ : Shape).Idx → EReal)
    (ha : a' = a) (hb : b' = b) (hu : u' = u)
    (h1 : ∀ (k : Fin 3072) (n : Fin 3072), w1t (ix2 k n) = w1 (ix2 n k)) (hβ1 : β1' = β1)
    (hy : y = affineT (feat a' b' u') w1t β1')
    (h2 : ∀ (k : Fin 3072) (n : Fin 3072), w2t (ix2 k n) = w2 (ix2 n k)) (hβ2 : β2' = β2)
    (h3 : ∀ (k : Fin 3072) (n : Fin 8), w3t (ix2 k n) = w3 (ix2 n k)) (hβ3 : β3' = β3) :
    affineT (affineT y w2t β2') w3t β3' = mlp a b u w1 β1 w2 β2 w3 β3 := by
  subst ha hb hu hβ1 hβ2 hβ3 hy
  rw [affineT_eq_affine _ w3t w3 _ h3, affineT_eq_affine _ w2t w2 _ h2, affineT_eq_affine _ w1t w1 _ h1]
  rfl

/-! ## Tiles -/

/-- The features of pair (p, q) of a tile are those of the pair (P, Q) of the whole, when the tile's text rows p are the
    whole's rows P and its user row q is the whole's row Q. -/
theorem feat_tile {T U T' U' : Nat}
    (a' b' : (⟨2, ![T', 1024]⟩ : Shape).Idx → EReal) (u' : (⟨2, ![U', 1024]⟩ : Shape).Idx → EReal)
    (a b : (⟨2, ![T, 1024]⟩ : Shape).Idx → EReal) (u : (⟨2, ![U, 1024]⟩ : Shape).Idx → EReal)
    (p : Fin T') (q : Fin U') (P : Fin T) (Q : Fin U)
    (ha : ∀ h : Fin 1024, a' (ix2 p h) = a (ix2 P h)) (hb : ∀ h : Fin 1024, b' (ix2 p h) = b (ix2 P h))
    (hu : ∀ h : Fin 1024, u' (ix2 q h) = u (ix2 Q h)) (k : Fin 3072) :
    feat a' b' u' (ix3 p q k) = feat a b u (ix3 P Q k) := by
  unfold feat
  by_cases h1 : k.val < 1024
  · rw [dif_pos (show ((ix3 p q k) 2).val < 1024 from h1), dif_pos (show ((ix3 P Q k) 2).val < 1024 from h1)]
    exact congrArg₂ min (ha ⟨k.val, h1⟩) (hb ⟨k.val, h1⟩)
  · rw [dif_neg (show ¬((ix3 p q k) 2).val < 1024 from h1), dif_neg (show ¬((ix3 P Q k) 2).val < 1024 from h1)]
    by_cases h2 : k.val < 2048
    · rw [dif_pos (show ((ix3 p q k) 2).val < 2048 from h2), dif_pos (show ((ix3 P Q k) 2).val < 2048 from h2)]
      exact congrArg₂ max (ha ⟨k.val - 1024, by omega⟩) (hb ⟨k.val - 1024, by omega⟩)
    · rw [dif_neg (show ¬((ix3 p q k) 2).val < 2048 from h2), dif_neg (show ¬((ix3 P Q k) 2).val < 2048 from h2)]
      exact hu ⟨k.val - 2048, by have := k.isLt; omega⟩

/-- A layer at pair (p, q) of a tile is the layer at pair (P, Q) of the whole, when the tile's input row (p, q) is the
    whole's row (P, Q). -/
theorem affineT_tile {T U T' U' K N : Nat}
    (y' : (⟨3, ![T', U', K]⟩ : Shape).Idx → EReal) (y : (⟨3, ![T, U, K]⟩ : Shape).Idx → EReal)
    (wt : (⟨2, ![K, N]⟩ : Shape).Idx → EReal) (β : (⟨1, ![N]⟩ : Shape).Idx → EReal)
    (p : Fin T') (q : Fin U') (P : Fin T) (Q : Fin U)
    (hy : ∀ k : Fin K, y' (ix3 p q k) = y (ix3 P Q k)) (n : Fin N) :
    affineT y' wt β (ix3 p q n) = affineT y wt β (ix3 P Q n) := by
  show (∑ k : Fin K, y' (ix3 p q k) * wt (ix2 k n)) + β (ix1 n) = (∑ k : Fin K, y (ix3 P Q k) * wt (ix2 k n)) + β (ix1 n)
  exact congrArg (· + β (ix1 n)) (Finset.sum_congr rfl fun k _ => by rw [hy k])

end Cert.PairMlp

end
-- ==== Proof.TileLayout.lean ====
/-
  Layout bookkeeping of a tile of 8 text rows by 32 user rows, read at one coordinate.

  The pair (p, q) of the tile is row 32·p + q of the tile flattened to 256 rows; a bias row broadcast over the rows
  reads the bias; a text row broadcast over the 32 user rows, and a user row broadcast over the 8 text rows, read the
  row; and a concatenation of two pieces along the last axis reads the first piece below its length and the second,
  shifted, from there on.
-/
import Idealize.ShloMosaic.Lib.Pipeline.Value
import Idealize.ShloMosaic.Lib.ValueIdx

noncomputable section

namespace Cert.TileLayout

open Idealize.ShloMosaic Idealize.ShloMosaic.ValueIdx

variable {α : Type}

/-- The flattened row of the pair (p, q). -/
abbrev row (p : Fin 8) (q : Fin 32) : Fin 256 := ⟨p.val * 32 + q.val, by omega⟩

/-- A tile flattened to 256 rows, at the row of (p, q), is the tile at (p, q). -/
theorem flat_at {C : Nat} (v : (⟨3, ![8, 32, C]⟩ : Shape).Idx → α)
    (h : (⟨3, ![8, 32, C]⟩ : Shape).ShapeCasts ⟨2, ![256, C]⟩) (p : Fin 8) (q : Fin 32) (k : Fin C) :
    shapeCast ⟨2, ![256, C]⟩ v h (ix2 (row p q) k) = v (ix3 p q k) :=
  shapeCast_apply v h _ _ (by rw [Shape.rowMajor_val_three, Shape.rowMajor_val_two]; rfl)

/-- 256 rows folded back into the tile, at (p, q), are the row of (p, q). -/
theorem unflat_at {C : Nat} (v : (⟨2, ![256, C]⟩ : Shape).Idx → α)
    (h : (⟨2, ![256, C]⟩ : Shape).ShapeCasts ⟨3, ![8, 32, C]⟩) (p : Fin 8) (q : Fin 32) (k : Fin C) :
    shapeCast ⟨3, ![8, 32, C]⟩ v h (ix3 p q k) = v (ix2 (row p q) k) :=
  shapeCast_apply v h _ _ (by rw [Shape.rowMajor_val_three, Shape.rowMajor_val_two]; rfl)

/-- A bias vector laid out as one row and broadcast over R rows reads the bias at the column. -/
theorem bias_at {R C : Nat} (v : (⟨1, ![C]⟩ : Shape).Idx → α)
    (h : (⟨1, ![C]⟩ : Shape).ShapeCasts ⟨2, ![1, C]⟩) (h' : (⟨2, ![1, C]⟩ : Shape).Broadcasts ⟨2, ![R, C]⟩)
    (r : Fin R) (n : Fin C) :
    broadcastTo ⟨2, ![R, C]⟩ (shapeCast ⟨2, ![1, C]⟩ v h) h' (ix2 r n) = v (ix1 n) := by
  refine (broadcastTo_apply _ h' (ix2 r n) (ix2 (⟨0, Nat.one_pos⟩ : Fin 1) n) (fun a => ?_)).trans ?_
  · match a with
    | ⟨0, _⟩ => show (0 : Nat) = if (1 : Nat) = 1 then 0 else _; rw [if_pos rfl]
    | ⟨1, _⟩ =>
      show n.val = if C = 1 then 0 else n.val
      split
      · have := n.isLt; omega
      · rfl
  · exact shapeCast_apply v h _ _ (by rw [Shape.rowMajor_val_one, Shape.rowMajor_val_two]; show n.val = 0 * C + n.val; omega)

/-- A block of 8 rows, each broadcast over the 32 user rows, reads its row. -/
theorem textrow_at {C : Nat} (hC : C ≠ 1) (w : (⟨2, ![8, C]⟩ : Shape).Idx → α)
    (h1 : (⟨2, ![8, C]⟩ : Shape).ShapeCasts ⟨3, ![8, 1, C]⟩) (h2 : (⟨3, ![8, 1, C]⟩ : Shape).ShapeCasts ⟨3, ![8, 1, C]⟩)
    (h3 : (⟨3, ![8, 1, C]⟩ : Shape).Broadcasts ⟨3, ![8, 32, C]⟩) (p : Fin 8) (q : Fin 32) (k : Fin C) :
    broadcastTo ⟨3, ![8, 32, C]⟩ (shapeCast ⟨3, ![8, 1, C]⟩ (shapeCast ⟨3, ![8, 1, C]⟩ w h1) h2) h3 (ix3 p q k)
      = w (ix2 p k) := by
  refine (broadcastTo_apply _ h3 (ix3 p q k) (ix3 p (⟨0, Nat.one_pos⟩ : Fin 1) k) (fun a => ?_)).trans ?_
  · match a with
    | ⟨0, _⟩ => show p.val = if (8 : Nat) = 1 then 0 else p.val; rw [if_neg (by decide)]
    | ⟨1, _⟩ => show (0 : Nat) = if (1 : Nat) = 1 then 0 else _; rw [if_pos rfl]
    | ⟨2, _⟩ => show k.val = if C = 1 then 0 else k.val; rw [if_neg hC]
  · rw [shapeCast_self]
    exact shapeCast_apply w h1 _ _ (by
      rw [Shape.rowMajor_val_three, Shape.rowMajor_val_two]; show p.val * C + k.val = (p.val * 1 + 0) * C + k.val; rw [Nat.mul_one, Nat.add_zero])

/-- A block of 32 rows, broadcast over the 8 text rows, reads its row. -/
theorem userrow_at {C : Nat} (hC : C ≠ 1) (w : (⟨2, ![32, C]⟩ : Shape).Idx → α)
    (h1 : (⟨2, ![32, C]⟩ : Shape).ShapeCasts ⟨3, ![1, 32, C]⟩) (h2 : (⟨3, ![1, 32, C]⟩ : Shape).ShapeCasts ⟨3, ![1, 32, C]⟩)
    (h3 : (⟨3, ![1, 32, C]⟩ : Shape).Broadcasts ⟨3, ![8, 32, C]⟩) (p : Fin 8) (q : Fin 32) (k : Fin C) :
    broadcastTo ⟨3, ![8, 32, C]⟩ (shapeCast ⟨3, ![1, 32, C]⟩ (shapeCast ⟨3, ![1, 32, C]⟩ w h1) h2) h3 (ix3 p q k)
      = w (ix2 q k) := by
  refine (broadcastTo_apply _ h3 (ix3 p q k) (ix3 (⟨0, Nat.one_pos⟩ : Fin 1) q k) (fun a => ?_)).trans ?_
  · match a with
    | ⟨0, _⟩ => show (0 : Nat) = if (1 : Nat) = 1 then 0 else _; rw [if_pos rfl]
    | ⟨1, _⟩ => show q.val = if (32 : Nat) = 1 then 0 else q.val; rw [if_neg (by decide)]
    | ⟨2, _⟩ => show k.val = if C = 1 then 0 else k.val; rw [if_neg hC]
  · rw [shapeCast_self]
    exact shapeCast_apply w h1 _ _ (by
      rw [Shape.rowMajor_val_three, Shape.rowMajor_val_two]; show q.val * C + k.val = (0 * 32 + q.val) * C + k.val; rw [Nat.zero_mul, Nat.zero_add])

/-- Two matrices joined along the columns: a column of the first. -/
theorem cat2_left {A n1 n2 n : Nat} (x₁ : (⟨2, ![A, n1]⟩ : Shape).Idx → α) (x₂ : (⟨2, ![A, n2]⟩ : Shape).Idx → α)
    (h : Shape.Concatenates [(⟨2, ![A, n1]⟩ : Shape), ⟨2, ![A, n2]⟩] ⟨2, ![A, n]⟩ 1) (p : Fin A) (k : Fin n)
    (hk : k.val < n1) :
    concatenate ⟨2, ![A, n]⟩ 1 [⟨⟨2, ![A, n1]⟩, x₁⟩, ⟨⟨2, ![A, n2]⟩, x₂⟩] h (ix2 p k) = x₁ (ix2 p ⟨k.val, hk⟩) :=
  concatenate_pair_apply_left 1 x₁ x₂ h (ix2 p k) rfl (ix2 p ⟨k.val, hk⟩) (fun b => by
    match b with
    | ⟨0, _⟩ => rfl
    | ⟨1, _⟩ => rfl)

/-- Two matrices joined along the columns: a column of the second. -/
theorem cat2_right {A n1 n2 n : Nat} (x₁ : (⟨2, ![A, n1]⟩ : Shape).Idx → α) (x₂ : (⟨2, ![A, n2]⟩ : Shape).Idx → α)
    (h : Shape.Concatenates [(⟨2, ![A, n1]⟩ : Shape), ⟨2, ![A, n2]⟩] ⟨2, ![A, n]⟩ 1) (p : Fin A) (k : Fin n)
    (hk : n1 ≤ k.val) (hk2 : k.val - n1 < n2) :
    concatenate ⟨2, ![A, n]⟩ 1 [⟨⟨2, ![A, n1]⟩, x₁⟩, ⟨⟨2, ![A, n2]⟩, x₂⟩] h (ix2 p k) = x₂ (ix2 p ⟨k.val - n1, hk2⟩) :=
  concatenate_pair_apply_right 1 x₁ x₂ h (ix2 p k) rfl rfl (ix2 p ⟨k.val - n1, hk2⟩) (fun b hb => by
    match b with
    | ⟨0, _⟩ => rfl
    | ⟨1, _⟩ => exact absurd rfl hb) (by show k.val - n1 + n1 = k.val; omega)

/-- Two rank-3 arrays joined along the last axis: an entry of the first. -/
theorem cat3_left {A B n1 n2 n : Nat} (x₁ : (⟨3, ![A, B, n1]⟩ : Shape).Idx → α) (x₂ : (⟨3, ![A, B, n2]⟩ : Shape).Idx → α)
    (h : Shape.Concatenates [(⟨3, ![A, B, n1]⟩ : Shape), ⟨3, ![A, B, n2]⟩] ⟨3, ![A, B, n]⟩ 2) (p : Fin A) (q : Fin B)
    (k : Fin n) (hk : k.val < n1) :
    concatenate ⟨3, ![A, B, n]⟩ 2 [⟨⟨3, ![A, B, n1]⟩, x₁⟩, ⟨⟨3, ![A, B, n2]⟩, x₂⟩] h (ix3 p q k)
      = x₁ (ix3 p q ⟨k.val, hk⟩) :=
  concatenate_pair_apply_left 2 x₁ x₂ h (ix3 p q k) rfl (ix3 p q ⟨k.val, hk⟩) (fun b => by
    match b with
    | ⟨0, _⟩ => rfl
    | ⟨1, _⟩ => rfl
    | ⟨2, _⟩ => rfl)

/-- Two rank-3 arrays joined along the last axis: an entry of the second. -/
theorem cat3_right {A B n1 n2 n : Nat} (x₁ : (⟨3, ![A, B, n1]⟩ : Shape).Idx → α) (x₂ : (⟨3, ![A, B, n2]⟩ : Shape).Idx → α)
    (h : Shape.Concatenates [(⟨3, ![A, B, n1]⟩ : Shape), ⟨3, ![A, B, n2]⟩] ⟨3, ![A, B, n]⟩ 2) (p : Fin A) (q : Fin B)
    (k : Fin n) (hk : n1 ≤ k.val) (hk2 : k.val - n1 < n2) :
    concatenate ⟨3, ![A, B, n]⟩ 2 [⟨⟨3, ![A, B, n1]⟩, x₁⟩, ⟨⟨3, ![A, B, n2]⟩, x₂⟩] h (ix3 p q k)
      = x₂ (ix3 p q ⟨k.val - n1, hk2⟩) :=
  concatenate_pair_apply_right 2 x₁ x₂ h (ix3 p q k) rfl rfl (ix3 p q ⟨k.val - n1, hk2⟩) (fun b hb => by
    match b with
    | ⟨0, _⟩ => rfl
    | ⟨1, _⟩ => rfl
    | ⟨2, _⟩ => exact absurd rfl hb) (by show k.val - n1 + n1 = k.val; omega)

end Cert.TileLayout

end
-- ==== Proof.LibMatmulAt.lean ====
/-
  A matrix product into a zero accumulator, read at one entry over the extended reals.

  For dimension numbers that contract the left operand's second axis with the right operand's first, with no batch
  axis — so that the left operand is read at (row, k) and the right at (k, column) — the entry (p, q) of the product
  of an [A × K] and a [K × B] matrix is `∑ₖ l[p, k] · r[k, q]`. The four facts about where the dimension numbers
  read their operands are hypotheses, so that the lemma serves any printed record of this kind.
-/
import Idealize.ShloMosaic.PureOps.Ideal.Laws
import Idealize.ShloMosaic.Lib.ValueIdx

noncomputable section

namespace Idealize.ShloMosaic.MatmulAt

open Idealize.ShloMosaic Idealize.ShloMosaic.ValueIdx

/-- Entry (p, q) of `l · r` accumulated into zero is the sum over the contracted axis of `l[p, k] · r[k, q]`, for
    dimension numbers `D` whose one contracted axis has extent `K` (`hr`, `hs`) and which read the left operand at
    (row, k) (`hl0`, `hl1`) and the right at (k, column) (`hr0`, `hr1`). -/
theorem matmul_zero_at {A K B : Nat} {φ₁ φ₂ : FTy}
    (D : DotDims (⟨2, ![A, K]⟩ : Shape) (⟨2, ![K, B]⟩ : Shape) (⟨2, ![A, B]⟩ : Shape))
    (hr : D.contr.rank = 1) (hs : D.contr.size ⟨0, by omega⟩ = K)
    (hl0 : ∀ (i : (⟨2, ![A, B]⟩ : Shape).Idx) (q : D.contr.Idx), (D.lhsIdx i q 0).val = (i 0).val)
    (hl1 : ∀ (i : (⟨2, ![A, B]⟩ : Shape).Idx) (q : D.contr.Idx), (D.lhsIdx i q 1).val = (q ⟨0, by omega⟩).val)
    (hr0 : ∀ (i : (⟨2, ![A, B]⟩ : Shape).Idx) (q : D.contr.Idx), (D.rhsIdx i q 0).val = (q ⟨0, by omega⟩).val)
    (hr1 : ∀ (i : (⟨2, ![A, B]⟩ : Shape).Idx) (q : D.contr.Idx), (D.rhsIdx i q 1).val = (i 1).val)
    (prec : Option ContractPrecision) (l : FVec Ideal (⟨2, ![A, K]⟩ : Shape) φ₁) (r : FVec Ideal (⟨2, ![K, B]⟩ : Shape) φ₂)
    (p : Fin A) (q : Fin B) :
    FloatOps.matmul D prec l r (constant (F := Ideal) (⟨2, ![A, B]⟩ : Shape) .f32 0x00000000#32) (ix2 p q)
      = ∑ k : Fin K, l (ix2 p k) * r (ix2 k q) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 k q := funext fun a => Fin.ext (by
    match a with
    | ⟨0, _⟩ => exact (hr0 _ _).trans hk
    | ⟨1, _⟩ => exact hr1 _ _)
  rw [el, er]

end Idealize.ShloMosaic.MatmulAt

end
-- ==== Proof.MatmulRecords.lean ====
/-
  The kernel's two matrix products, read at one entry over the extended reals.

  Both contract the left operand's columns with the right operand's rows and accumulate into zero: the 256 flattened
  pair rows times a [3072, 3072] weight matrix, and times a [3072, 8] one. Entry (r, n) is ∑ₖ l[r, k] · w[k, n].
-/
import proofs.«118750_j12876311953983_1_alg».proof.Proof.Gen.KernelIdeal
import proofs.«118750_j12876311953983_1_alg».proof.Proof.LibMatmulAt

noncomputable section

open scoped BigOperators

namespace Cert.KernelIdeal.Tile

open Cert.KernelIdeal Cert.KernelIdeal.Gen Idealize.ShloMosaic Idealize.ShloMosaic.ValueIdx

/-! Where each product's dimension numbers read their operands: the left at (row, k), the right at (k, column). -/

theorem wide_l0 (i : S256x3072.Idx) (q : dot_S256x3072_S3072x3072_S256x3072_1_0_0_1_n_n.contr.Idx) :
    (dot_S256x3072_S3072x3072_S256x3072_1_0_0_1_n_n.lhsIdx i q 0).val = (i 0).val := by
  unfold DotDims.lhsIdx
  rw [dif_neg (show ¬(0 : Fin S256x3072.rank) ∈ dot_S256x3072_S3072x3072_S256x3072_1_0_0_1_n_n.lhsBatch by decide), dif_pos (show (0 : Fin S256x3072.rank) ∈ dot_S256x3072_S3072x3072_S256x3072_1_0_0_1_n_n.lhsNonContracting by decide)]
  rfl
theorem wide_l1 (i : S256x3072.Idx) (q : dot_S256x3072_S3072x3072_S256x3072_1_0_0_1_n_n.contr.Idx) :
    (dot_S256x3072_S3072x3072_S256x3072_1_0_0_1_n_n.lhsIdx i q 1).val = (q ⟨0, by decide⟩).val :=
  dot_S256x3072_S3072x3072_S256x3072_1_0_0_1_n_n.lhsIdx_val_of_single rfl i q
theorem wide_r0 (i : S256x3072.Idx) (q : dot_S256x3072_S3072x3072_S256x3072_1_0_0_1_n_n.contr.Idx) :
    (dot_S256x3072_S3072x3072_S256x3072_1_0_0_1_n_n.rhsIdx i q 0).val = (q ⟨0, by decide⟩).val :=
  dot_S256x3072_S3072x3072_S256x3072_1_0_0_1_n_n.rhsIdx_val_of_single rfl i q
theorem wide_r1 (i : S256x3072.Idx) (q : dot_S256x3072_S3072x3072_S256x3072_1_0_0_1_n_n.contr.Idx) :
    (dot_S256x3072_S3072x3072_S256x3072_1_0_0_1_n_n.rhsIdx i q 1).val = (i 1).val := by
  unfold DotDims.rhsIdx
  rw [dif_neg (show ¬(1 : Fin S3072x3072.rank) ∈ dot_S256x3072_S3072x3072_S256x3072_1_0_0_1_n_n.rhsBatch by decide), dif_pos (show (1 : Fin S3072x3072.rank) ∈ dot_S256x3072_S3072x3072_S256x3072_1_0_0_1_n_n.rhsNonContracting by decide)]
  rfl

theorem narrow_l0 (i : S256x8.Idx) (q : dot_S256x3072_S3072x8_S256x8_1_0_0_1_n_n.contr.Idx) :
    (dot_S256x3072_S3072x8_S256x8_1_0_0_1_n_n.lhsIdx i q 0).val = (i 0).val := by
  unfold DotDims.lhsIdx
  rw [dif_neg (show ¬(0 : Fin S256x3072.rank) ∈ dot_S256x3072_S3072x8_S256x8_1_0_0_1_n_n.lhsBatch by decide), dif_pos (show (0 : Fin S256x3072.rank) ∈ dot_S256x3072_S3072x8_S256x8_1_0_0_1_n_n.lhsNonContracting by decide)]
  rfl
theorem narrow_l1 (i : S256x8.Idx) (q : dot_S256x3072_S3072x8_S256x8_1_0_0_1_n_n.contr.Idx) :
    (dot_S256x3072_S3072x8_S256x8_1_0_0_1_n_n.lhsIdx i q 1).val = (q ⟨0, by decide⟩).val :=
  dot_S256x3072_S3072x8_S256x8_1_0_0_1_n_n.lhsIdx_val_of_single rfl i q
theorem narrow_r0 (i : S256x8.Idx) (q : dot_S256x3072_S3072x8_S256x8_1_0_0_1_n_n.contr.Idx) :
    (dot_S256x3072_S3072x8_S256x8_1_0_0_1_n_n.rhsIdx i q 0).val = (q ⟨0, by decide⟩).val :=
  dot_S256x3072_S3072x8_S256x8_1_0_0_1_n_n.rhsIdx_val_of_single rfl i q
theorem narrow_r1 (i : S256x8.Idx) (q : dot_S256x3072_S3072x8_S256x8_1_0_0_1_n_n.contr.Idx) :
    (dot_S256x3072_S3072x8_S256x8_1_0_0_1_n_n.rhsIdx i q 1).val = (i 1).val := by
  unfold DotDims.rhsIdx
  rw [dif_neg (show ¬(1 : Fin S3072x8.rank) ∈ dot_S256x3072_S3072x8_S256x8_1_0_0_1_n_n.rhsBatch by decide), dif_pos (show (1 : Fin S3072x8.rank) ∈ dot_S256x3072_S3072x8_S256x8_1_0_0_1_n_n.rhsNonContracting by decide)]
  rfl

/-- The product with a square weight matrix, at (r, n). -/
theorem matmul_wide {φ₁ φ₂ : FTy} (l : FVec Ideal S256x3072 φ₁) (w : FVec Ideal S3072x3072 φ₂) (r : Fin 256) (n : Fin 3072) :
    matmul dot_S256x3072_S3072x3072_S256x3072_1_0_0_1_n_n none l w (constant (F := Ideal) S256x3072 .f32 0x00000000#32) (ix2 r n)
      = ∑ k : Fin 3072, l (ix2 r k) * w (ix2 k n) :=
  MatmulAt.matmul_zero_at dot_S256x3072_S3072x3072_S256x3072_1_0_0_1_n_n rfl rfl wide_l0 wide_l1 wide_r0 wide_r1 none l w r n

/-- The product with the last layer's [3072, 8] weight matrix, at (r, o). -/
theorem matmul_narrow {φ₁ φ₂ : FTy} (l : FVec Ideal S256x3072 φ₁) (w : FVec Ideal S3072x8 φ₂) (r : Fin 256) (o : Fin 8) :
    matmul dot_S256x3072_S3072x8_S256x8_1_0_0_1_n_n none l w (constant (F := Ideal) S256x8 .f32 0x00000000#32) (ix2 r o)
      = ∑ k : Fin 3072, l (ix2 r k) * w (ix2 k o) :=
  MatmulAt.matmul_zero_at dot_S256x3072_S3072x8_S256x8_1_0_0_1_n_n rfl rfl narrow_l0 narrow_l1 narrow_r0 narrow_r1 none l w r o

end Cert.KernelIdeal.Tile

end
-- ==== Proof.Layer1Tile.lean ====
/-
  What the first kernel stores, at one entry of its tile.

  From its 8 rows of each text block and its 32 user rows the kernel forms, for each pair (p, q), the features
  (min, max, user row), flattens the 256 pairs to rows, multiplies by the transposed first-layer weights into a zero
  accumulator, adds the bias row and folds the rows back into the tile. Over the extended reals a change of float
  format is the identity, so the stored entry (p, q, n) is the first affine layer, over transposed weights, of the
  tile's features.
-/
import proofs.«118750_j12876311953983_1_alg».proof.Proof.Gen.KernelIdeal.Skeleton
import proofs.«118750_j12876311953983_1_alg».proof.Proof.PairMlp
import proofs.«118750_j12876311953983_1_alg».proof.Proof.TileLayout
import proofs.«118750_j12876311953983_1_alg».proof.Proof.MatmulRecords

noncomputable section

open scoped BigOperators

namespace Cert.KernelIdeal.Tile

open Cert.KernelIdeal Cert.KernelIdeal.Gen Idealize.ShloMosaic Idealize.ShloMosaic.ValueIdx Cert.PairMlp Cert.TileLayout

/-- The features the kernel builds for the pair (p, q), at position k: the two concatenations, the two broadcasts. -/
theorem features_at (x0 x1 : Vec Ideal S8x1024 .f32) (x2 : Vec Ideal S32x1024 .f32) (p : Fin 8) (q : Fin 32) (k : Fin 3072) :
    concatenate S8x32x3072 2
      [⟨S8x32x2048, broadcastTo S8x32x2048 (shapeCast S8x1x2048 (shapeCast S8x1x2048 (truncf (F := Ideal) .bf16
          (concatenate S8x2048 1 [⟨S8x1024, minimumf x0 x1⟩, ⟨S8x1024, maximumf x0 x1⟩] concatenates_S8x1024_S8x1024_S8x2048_d1)
          bitsLt_bf16_f32) shapeCasts_S8x2048_S8x1x2048) shapeCasts_S8x1x2048_S8x1x2048) broadcasts_S8x1x2048_S8x32x2048⟩,
       ⟨S8x32x1024, broadcastTo S8x32x1024 (shapeCast S1x32x1024 (shapeCast S1x32x1024 (truncf (F := Ideal) .bf16 x2 bitsLt_bf16_f32)
          shapeCasts_S32x1024_S1x32x1024) shapeCasts_S1x32x1024_S1x32x1024) broadcasts_S1x32x1024_S8x32x1024⟩]
      concatenates_S8x32x2048_S8x32x1024_S8x32x3072_d2 (ix3 p q k)
    = feat x0 x1 x2 (ix3 p q k) := by
  unfold feat
  by_cases h2 : k.val < 2048
  · rw [cat3_left _ _ _ p q k h2, textrow_at (by decide), truncf_apply]
    by_cases h1 : k.val < 1024
    · rw [dif_pos (show ((ix3 p q k) 2).val < 1024 from h1), cat2_left _ _ _ p ⟨k.val, h2⟩ h1, minimumf_apply]
    · rw [dif_neg (show ¬((ix3 p q k) 2).val < 1024 from h1), dif_pos (show ((ix3 p q k) 2).val < 2048 from h2),
        cat2_right _ _ _ p ⟨k.val, h2⟩ (Nat.le_of_not_lt h1) (by show k.val - 1024 < 1024; omega), maximumf_apply]
  · have h1 : ¬k.val < 1024 := fun h => h2 (by omega)
    rw [dif_neg (show ¬((ix3 p q k) 2).val < 1024 from h1), dif_neg (show ¬((ix3 p q k) 2).val < 2048 from h2),
      cat3_right _ _ _ p q k (Nat.le_of_not_lt h2) (by have := k.isLt; show k.val - 2048 < 1024; omega),
      userrow_at (by decide), truncf_apply]

/-- The entry (p, q, n) the first kernel stores: the first layer, over the transposed weights, of the tile's features. -/
theorem layer1_pay (x0 x1 : Vec Ideal S8x1024 .f32) (x2 : Vec Ideal S32x1024 .f32) (x3 : Vec Ideal S3072x3072 .bf16)
    (x4 : Vec Ideal S3072 .f32) (p : Fin 8) (q : Fin 32) (n : Fin 3072) :
    k0_pay1 (F := Ideal) x0 x1 x2 x3 x4 (ix3 p q n) = affineT (feat x0 x1 x2) x3 x4 (ix3 p q n) := by
  unfold k0_pay1
  rw [truncf_apply, unflat_at, addf_apply, matmul_wide, bias_at]
  show _ = (∑ k : Fin 3072, feat x0 x1 x2 (ix3 p q k) * x3 (ix2 k n)) + x4 (ix1 n)
  refine congrArg (· + x4 (ix1 n)) (Finset.sum_congr rfl fun k _ => ?_)
  rw [flat_at, features_at, shapeCast_self]

end Cert.KernelIdeal.Tile

end
-- ==== Proof.Layer1Array.lean ====
/-
  The array the first kernel leaves: the first affine layer of the features of all 256 × 128 pairs.

  Grid point t = (I, J) of the 32 × 4 grid reads text rows 8·I … 8·I + 7, user rows 32·J … 32·J + 31, the whole
  transposed weight matrix and the whole bias, and writes back tile (I, J) of the output: the pairs (8·I + p, 32·J + q).
  What it writes is the layer at exactly those pairs, and the tiles cover the array.
-/
import proofs.«118750_j12876311953983_1_alg».proof.Proof.Gen.KernelIdeal.Frame
import proofs.«118750_j12876311953983_1_alg».proof.Proof.Layer1Tile
import Idealize.ShloMosaic.Lib.Pipeline.Value

noncomputable section

open scoped BigOperators

namespace Cert.KernelIdeal.Arrays

open Cert.KernelIdeal Cert.KernelIdeal.Gen Cert.KernelIdeal.Tile Idealize.ShloMosaic Idealize.ShloMosaic.TcCoe Idealize.SL.Sem
open Idealize.ShloMosaic.ValueIdx Cert.PairMlp
open Idealize.ShloMosaic.Pipeline (Dat)

variable (V : (c : Dev nD) → (b : Ref sig .tc) → Buf (Elt Ideal) ((c : Thread nD τ).loc b))

theorem hz1 : (![0] : Fin 1 → Nat) = fun _ => 0 := funext fun a => by fin_cases a; rfl
theorem hz2 : (![0, 0] : Fin 2 → Nat) = fun _ => 0 := funext fun a => by fin_cases a <;> rfl
theorem hz3 : (![0, 0, 0] : Fin 3 → Nat) = fun _ => 0 := funext fun a => by fin_cases a <;> rfl

/-- Which block each window stages at grid point t: the text windows follow the output tile's first index, the user
    window its second, the weights and the bias are whole; the output's tile indices are (t / 4, t mod 4, 0). -/
theorem idx0 : ∀ t : Fin cfg0.N,
    win0_0.index t (0 : Fin 2) = win0_5.index t (0 : Fin 3) ∧ win0_0.index t (1 : Fin 2) = 0
    ∧ win0_1.index t (0 : Fin 2) = win0_5.index t (0 : Fin 3) ∧ win0_1.index t (1 : Fin 2) = 0
    ∧ win0_2.index t (0 : Fin 2) = win0_5.index t (1 : Fin 3) ∧ win0_2.index t (1 : Fin 2) = 0
    ∧ win0_3.index t (0 : Fin 2) = 0 ∧ win0_3.index t (1 : Fin 2) = 0
    ∧ win0_4.index t (0 : Fin 1) = 0
    ∧ win0_5.index t (0 : Fin 3) = t.val / 4 ∧ win0_5.index t (1 : Fin 3) = t.val % 4 ∧ win0_5.index t (2 : Fin 3) = 0 :=
  (by decide +kernel : ∀ t : Fin grid0.N, _)

/-- The first layer, over the transposed weights as the kernel finds them, of every pair's features. -/
abbrev H1 (c : Dev nD) : S256x128x3072.Idx → EReal :=
  affineT (feat (V c main_arg0) (V c main_arg1) (V c main_arg2)) (V c main_v1) (V c main_arg4)

/-! ## The staged blocks are rows of the arrays -/

theorem read0_0 (c : Dev nD) (t : Fin cfg0.N) (p : Fin 8) (h : Fin 1024) (P : Fin 256)
    (hP : P.val = win0_5.index t (0 : Fin 3) * 8 + p.val) :
    (iblk0 V c 0 t : Vec Ideal S8x1024 .f32) (ix2 p h) = (V c main_arg0 : S256x1024.Idx → EReal) (ix2 P h) := by
  obtain ⟨e0, e1, -⟩ := idx0 t
  unfold iblk0
  rw [View.read_apply]
  refine congrArg (V c main_arg0 : S256x1024.Idx → EReal) (funext fun a => Fin.ext ?_)
  match a with
  | ⟨0, _⟩ => show win0_0.index t (0 : Fin 2) * 8 + 1 * p.val = P.val; omega
  | ⟨1, _⟩ => show win0_0.index t (1 : Fin 2) * 1024 + 1 * h.val = h.val; omega

theorem read0_1 (c : Dev nD) (t : Fin cfg0.N) (p : Fin 8) (h : Fin 1024) (P : Fin 256)
    (hP : P.val = win0_5.index t (0 : Fin 3) * 8 + p.val) :
    (iblk0 V c 1 t : Vec Ideal S8x1024 .f32) (ix2 p h) = (V c main_arg1 : S256x1024.Idx → EReal) (ix2 P h) := by
  obtain ⟨-, -, e0, e1, -⟩ := idx0 t
  unfold iblk0
  rw [View.read_apply]
  refine congrArg (V c main_arg1 : S256x1024.Idx → EReal) (funext fun a => Fin.ext ?_)
  match a with
  | ⟨0, _⟩ => show win0_1.index t (0 : Fin 2) * 8 + 1 * p.val = P.val; omega
  | ⟨1, _⟩ => show win0_1.index t (1 : Fin 2) * 1024 + 1 * h.val = h.val; omega

theorem read0_2 (c : Dev nD) (t : Fin cfg0.N) (q : Fin 32) (h : Fin 1024) (Q : Fin 128)
    (hQ : Q.val = win0_5.index t (1 : Fin 3) * 32 + q.val) :
    (iblk0 V c 2 t : Vec Ideal S32x1024 .f32) (ix2 q h) = (V c main_arg2 : S128x1024.Idx → EReal) (ix2 Q h) := by
  obtain ⟨-, -, -, -, e0, e1, -⟩ := idx0 t
  unfold iblk0
  rw [View.read_apply]
  refine congrArg (V c main_arg2 : S128x1024.Idx → EReal) (funext fun a => Fin.ext ?_)
  match a with
  | ⟨0, _⟩ => show win0_2.index t (0 : Fin 2) * 32 + 1 * q.val = Q.val; omega
  | ⟨1, _⟩ => show win0_2.index t (1 : Fin 2) * 1024 + 1 * h.val = h.val; omega

theorem read0_3 (c : Dev nD) (t : Fin cfg0.N) :
    (iblk0 V c 3 t : Vec Ideal S3072x3072 .bf16) = (V c main_v1 : S3072x3072.Idx → EReal) := by
  obtain ⟨-, -, -, -, -, -, e0, e1, -⟩ := idx0 t
  funext y
  unfold iblk0
  rw [View.read_apply]
  refine congrArg (V c main_v1 : S3072x3072.Idx → EReal) (funext fun a => Fin.ext ?_)
  match a with
  | ⟨0, _⟩ => show win0_3.index t (0 : Fin 2) * 3072 + 1 * (y 0).val = (y 0).val; omega
  | ⟨1, _⟩ => show win0_3.index t (1 : Fin 2) * 3072 + 1 * (y 1).val = (y 1).val; omega

theorem read0_4 (c : Dev nD) (t : Fin cfg0.N) :
    (iblk0 V c 4 t : Vec Ideal S3072 .f32) = (V c main_arg4 : S3072.Idx → EReal) := by
  obtain ⟨-, -, -, -, -, -, -, -, e0, -⟩ := idx0 t
  funext y
  unfold iblk0
  rw [View.read_apply]
  refine congrArg (V c main_arg4 : S3072.Idx → EReal) (funext fun a => Fin.ext ?_)
  match a with
  | ⟨0, _⟩ => show win0_4.index t (0 : Fin 1) * 3072 + 1 * (y 0).val = (y 0).val; omega

/-! ## One tile -/

/-- The entry (p, q, n) a grid point stores is the layer at the pair (P, Q) its tile places (p, q) at, given that its
    staged blocks are the rows P of the texts, the rows Q of the users, and the whole weights and bias. -/
theorem tile0 (A B : S256x1024.Idx → EReal) (U : S128x1024.Idx → EReal) (Wt : S3072x3072.Idx → EReal) (β : S3072.Idx → EReal)
    (x0 x1 : Vec Ideal S8x1024 .f32) (x2 : Vec Ideal S32x1024 .f32) (x3 : Vec Ideal S3072x3072 .bf16) (x4 : Vec Ideal S3072 .f32)
    (p : Fin 8) (q : Fin 32) (n : Fin 3072) (P : Fin 256) (Q : Fin 128)
    (h0 : ∀ h : Fin 1024, x0 (ix2 p h) = A (ix2 P h)) (h1 : ∀ h : Fin 1024, x1 (ix2 p h) = B (ix2 P h))
    (h2 : ∀ h : Fin 1024, x2 (ix2 q h) = U (ix2 Q h)) (h3 : x3 = Wt) (h4 : x4 = β) :
    k0_pay1 (F := Ideal) x0 x1 x2 x3 x4 (ix3 p q n) = affineT (feat A B U) Wt β (ix3 P Q n) := by
  subst h3 h4
  rw [layer1_pay]
  exact affineT_tile (feat x0 x1 x2) (feat A B U) x3 x4 p q P Q (fun k => feat_tile x0 x1 x2 A B U p q P Q h0 h1 h2 k) n

/-- WHAT GRID POINT t WRITES BACK is tile t of the layer. -/
theorem flushed0 (c : Dev nD) (t : Fin cfg0.N) :
    (dat0 V c).flushed 5 t = ((cfg0.win 5).blk t).view.read (Elt Ideal) (H1 V c) := by
  show (cfg0.win 5).cut (grid0.coords t) ((dat0 V c).after 5 t) = _
  rw [after0_5]
  unfold out0_5
  rw [View.canon_unit_zero hz3]
  simp only [View.ld_unit_zero (S := S8x1024) hz2, View.ld_unit_zero (S := S32x1024) hz2,
    View.ld_unit_zero (S := S3072x3072) hz2, View.ld_unit_zero (S := S3072) hz1]
  obtain ⟨-, -, -, -, -, -, -, -, -, e0, e1, e2⟩ := idx0 t
  have hN : t.val < 128 := Nat.lt_of_lt_of_eq t.isLt (show cfg0.N = 128 from N_0)
  funext j
  have hj0 : (j 0).val < 8 := (j 0).isLt
  have hj1 : (j 1).val < 32 := (j 1).isLt
  have hj2 : (j 2).val < 3072 := (j 2).isLt
  have ej : (cfg0.win 5).xinj (grid0.coords t) j = ix3 (⟨(j 0).val, hj0⟩ : Fin 8) (⟨(j 1).val, hj1⟩ : Fin 32) (⟨(j 2).val, hj2⟩ : Fin 3072) :=
    funext fun a => Fin.ext (by
      match a with
      | ⟨0, _⟩ => rfl
      | ⟨1, _⟩ => rfl
      | ⟨2, _⟩ => rfl)
  have eP : ((cfg0.win 5).blk t).view.emb j
      = ix3 (⟨win0_5.index t (0 : Fin 3) * 8 + (j 0).val, by omega⟩ : Fin 256) (⟨win0_5.index t (1 : Fin 3) * 32 + (j 1).val, by omega⟩ : Fin 128)
          (⟨(j 2).val, hj2⟩ : Fin 3072) :=
    funext fun a => Fin.ext (by
      match a with
      | ⟨0, _⟩ => show win0_5.index t (0 : Fin 3) * 8 + 1 * (j 0).val = win0_5.index t (0 : Fin 3) * 8 + (j 0).val; omega
      | ⟨1, _⟩ => show win0_5.index t (1 : Fin 3) * 32 + 1 * (j 1).val = win0_5.index t (1 : Fin 3) * 32 + (j 1).val; omega
      | ⟨2, _⟩ => show win0_5.index t (2 : Fin 3) * 3072 + 1 * (j 2).val = (j 2).val; omega)
  show k0_pay1 (F := Ideal) (iblk0 V c 0 t) (iblk0 V c 1 t) (iblk0 V c 2 t) (iblk0 V c 3 t) (iblk0 V c 4 t) ((cfg0.win 5).xinj (grid0.coords t) j)
    = H1 V c (((cfg0.win 5).blk t).view.emb j)
  rw [ej, eP]
  exact tile0 (V c main_arg0) (V c main_arg1) (V c main_arg2) (V c main_v1) (V c main_arg4)
    (iblk0 V c 0 t) (iblk0 V c 1 t) (iblk0 V c 2 t) (iblk0 V c 3 t) (iblk0 V c 4 t) _ _ _ _ _
    (fun h => read0_0 V c t _ h _ rfl) (fun h => read0_1 V c t _ h _ rfl) (fun h => read0_2 V c t _ h _ rfl)
    (read0_3 V c t) (read0_4 V c t)

/-! ## The tiles cover the array -/

/-- An index is in grid point t's tile iff each coordinate is in the tile's range on its axis. -/
theorem mem_blk0 (t : Fin cfg0.N) (i : S256x128x3072.Idx) :
    i ∈ ((cfg0.win 5).blk t).view.set ↔ ∀ a : Fin 3, win0_5.index t a * S8x32x3072.size a ≤ (i a).val ∧ (i a).val < win0_5.index t a * S8x32x3072.size a + S8x32x3072.size a := by
  show i ∈ ((View.whole main_v6).slice (win0_5.rect t)).set ↔ _
  rw [View.set_slice_whole, Rect.mem_set_unit]
  exact Iff.rfl

/-- Every entry of the array is in the tile of the grid point (i₀ / 8, i₁ / 32). -/
theorem cover0 (i : S256x128x3072.Idx) :
    ∃ t : Fin cfg0.N, (cfg0.win 5).flush t = true ∧ i ∈ ((cfg0.win 5).blk t).view.set := by
  have hi0 : (i 0).val < 256 := (i 0).isLt
  have hi1 : (i 1).val < 128 := (i 1).isLt
  have hi2 : (i 2).val < 3072 := (i 2).isLt
  refine ⟨⟨(i 0).val / 8 * 4 + (i 1).val / 32, by rw [show cfg0.N = 128 from N_0]; omega⟩, flush0_5 _, ?_⟩
  rw [mem_blk0]
  obtain ⟨-, -, -, -, -, -, -, -, -, e0, e1, e2⟩ := idx0 ⟨(i 0).val / 8 * 4 + (i 1).val / 32, by rw [show cfg0.N = 128 from N_0]; omega⟩
  intro a
  match a with
  | ⟨0, _⟩ =>
    show win0_5.index _ (0 : Fin 3) * 8 ≤ (i 0).val ∧ (i 0).val < win0_5.index _ (0 : Fin 3) * 8 + 8
    rw [e0]; show ((i 0).val / 8 * 4 + (i 1).val / 32) / 4 * 8 ≤ (i 0).val ∧ (i 0).val < ((i 0).val / 8 * 4 + (i 1).val / 32) / 4 * 8 + 8
    omega
  | ⟨1, _⟩ =>
    show win0_5.index _ (1 : Fin 3) * 32 ≤ (i 1).val ∧ (i 1).val < win0_5.index _ (1 : Fin 3) * 32 + 32
    rw [e1]; show ((i 0).val / 8 * 4 + (i 1).val / 32) % 4 * 32 ≤ (i 1).val ∧ (i 1).val < ((i 0).val / 8 * 4 + (i 1).val / 32) % 4 * 32 + 32
    omega
  | ⟨2, _⟩ =>
    show win0_5.index _ (2 : Fin 3) * 3072 ≤ (i 2).val ∧ (i 2).val < win0_5.index _ (2 : Fin 3) * 3072 + 3072
    rw [e2]; omega

/-- THE ARRAY the first kernel leaves. -/
theorem arr0 (c : Dev nD) : (dat0 V c).arrAt 5 cfg0.N = H1 V c :=
  (dat0 V c).arrAt_eq_of_cover 5 (H1 V c) (fun t _ => flushed0 V c t) (cover0)

end Cert.KernelIdeal.Arrays

end
-- ==== Proof.Layer23Tile.lean ====
/-
  What the second kernel stores, at one entry of its tile.

  The kernel flattens its tile of first-layer activations to 256 rows, multiplies by the transposed second-layer
  weights into a zero accumulator and adds the bias row; multiplies the result by the transposed third-layer weights
  into a zero accumulator and adds that bias row; and folds the rows back into the tile. Over the extended reals the
  stored entry (p, q, o) is the third affine layer of the second affine layer of the tile, both over transposed weights.
-/
import proofs.«118750_j12876311953983_1_alg».proof.Proof.Gen.KernelIdeal.Skeleton
import proofs.«118750_j12876311953983_1_alg».proof.Proof.PairMlp
import proofs.«118750_j12876311953983_1_alg».proof.Proof.TileLayout
import proofs.«118750_j12876311953983_1_alg».proof.Proof.MatmulRecords

noncomputable section

open scoped BigOperators

namespace Cert.KernelIdeal.Tile

open Cert.KernelIdeal Cert.KernelIdeal.Gen Idealize.ShloMosaic Idealize.ShloMosaic.ValueIdx Cert.PairMlp Cert.TileLayout

/-- The entry (p, q, o) the second kernel stores: layers two and three, over the transposed weights, of its tile. -/
theorem layer23_pay (x0 : Vec Ideal S8x32x3072 .bf16) (x1 : Vec Ideal S3072x3072 .bf16) (x2 : Vec Ideal S3072 .f32)
    (x3 : Vec Ideal S3072x8 .bf16) (x4 : Vec Ideal S8 .f32) (p : Fin 8) (q : Fin 32) (o : Fin 8) :
    k1_pay1 (F := Ideal) x0 x1 x2 x3 x4 (ix3 p q o) = affineT (affineT x0 x1 x2) x3 x4 (ix3 p q o) := by
  unfold k1_pay1
  simp only [shapeCast_self]
  rw [unflat_at, addf_apply, matmul_narrow, bias_at]
  show _ = (∑ k : Fin 3072, affineT x0 x1 x2 (ix3 p q k) * x3 (ix2 k o)) + x4 (ix1 o)
  refine congrArg (· + x4 (ix1 o)) (Finset.sum_congr rfl fun k _ => ?_)
  rw [truncf_apply, addf_apply, matmul_wide, bias_at]
  show _ = ((∑ k' : Fin 3072, x0 (ix3 p q k') * x1 (ix2 k' k)) + x2 (ix1 k)) * x3 (ix2 k o)
  refine congrArg (fun z => (z + x2 (ix1 k)) * x3 (ix2 k o)) (Finset.sum_congr rfl fun k' _ => ?_)
  rw [flat_at]

end Cert.KernelIdeal.Tile

end
-- ==== Proof.Layer23Array.lean ====
/-
  The array the second kernel leaves: layers two and three of the first layer's activations, at all 256 × 128 pairs.

  Grid point t = (I, J) of the 32 × 4 grid reads tile (I, J) of the activations — the pairs (8·I + p, 32·J + q) —, the
  two transposed weight matrices and the two biases whole, and writes back tile (I, J) of the output. What it writes is
  the two layers at exactly those pairs, and the tiles cover the array.
-/
import proofs.«118750_j12876311953983_1_alg».proof.Proof.Gen.KernelIdeal.Frame
import proofs.«118750_j12876311953983_1_alg».proof.Proof.Layer23Tile
import Idealize.ShloMosaic.Lib.Pipeline.Value

noncomputable section

open scoped BigOperators

namespace Cert.KernelIdeal.Arrays23

open Cert.KernelIdeal Cert.KernelIdeal.Gen Cert.KernelIdeal.Tile Idealize.ShloMosaic Idealize.ShloMosaic.TcCoe Idealize.SL.Sem
open Idealize.ShloMosaic.ValueIdx Cert.PairMlp
open Idealize.ShloMosaic.Pipeline (Dat)

variable (V : (c : Dev nD) → (b : Ref sig .tc) → Buf (Elt Ideal) ((c : Thread nD τ).loc b))

theorem hz1 : (![0] : Fin 1 → Nat) = fun _ => 0 := funext fun a => by fin_cases a; rfl
theorem hz2 : (![0, 0] : Fin 2 → Nat) = fun _ => 0 := funext fun a => by fin_cases a <;> rfl
theorem hz3 : (![0, 0, 0] : Fin 3 → Nat) = fun _ => 0 := funext fun a => by fin_cases a <;> rfl

/-- Which block each window stages at grid point t: the activations' window follows the output tile's two indices, the
    weights and the biases are whole; the output's tile indices are (t / 4, t mod 4, 0). -/
theorem idx1 : ∀ t : Fin cfg1.N,
    win1_0.index t (0 : Fin 3) = win1_5.index t (0 : Fin 3) ∧ win1_0.index t (1 : Fin 3) = win1_5.index t (1 : Fin 3)
    ∧ win1_0.index t (2 : Fin 3) = 0
    ∧ win1_1.index t (0 : Fin 2) = 0 ∧ win1_1.index t (1 : Fin 2) = 0
    ∧ win1_2.index t (0 : Fin 1) = 0
    ∧ win1_3.index t (0 : Fin 2) = 0 ∧ win1_3.index t (1 : Fin 2) = 0
    ∧ win1_4.index t (0 : Fin 1) = 0
    ∧ win1_5.index t (0 : Fin 3) = t.val / 4 ∧ win1_5.index t (1 : Fin 3) = t.val % 4 ∧ win1_5.index t (2 : Fin 3) = 0 :=
  (by decide +kernel : ∀ t : Fin grid1.N, _)

/-- Layers two and three, over the transposed weights as the kernel finds them, of the activations it finds. -/
abbrev H3 (c : Dev nD) : S256x128x8.Idx → EReal :=
  affineT (affineT (V c main_v6 : S256x128x3072.Idx → EReal) (V c main_v3) (V c main_arg6)) (V c main_v5) (V c main_arg8)

/-! ## The staged blocks are rows of the arrays -/

theorem read1_0 (c : Dev nD) (t : Fin cfg1.N) (p : Fin 8) (q : Fin 32) (k : Fin 3072) (P : Fin 256) (Q : Fin 128)
    (hP : P.val = win1_5.index t (0 : Fin 3) * 8 + p.val) (hQ : Q.val = win1_5.index t (1 : Fin 3) * 32 + q.val) :
    (iblk1 V c 0 t : Vec Ideal S8x32x3072 .bf16) (ix3 p q k) = (V c main_v6 : S256x128x3072.Idx → EReal) (ix3 P Q k) := by
  obtain ⟨e0, e1, e2, -⟩ := idx1 t
  unfold iblk1
  rw [View.read_apply]
  refine congrArg (V c main_v6 : S256x128x3072.Idx → EReal) (funext fun a => Fin.ext ?_)
  match a with
  | ⟨0, _⟩ => show win1_0.index t (0 : Fin 3) * 8 + 1 * p.val = P.val; omega
  | ⟨1, _⟩ => show win1_0.index t (1 : Fin 3) * 32 + 1 * q.val = Q.val; omega
  | ⟨2, _⟩ => show win1_0.index t (2 : Fin 3) * 3072 + 1 * k.val = k.val; omega

theorem read1_1 (c : Dev nD) (t : Fin cfg1.N) :
    (iblk1 V c 1 t : Vec Ideal S3072x3072 .bf16) = (V c main_v3 : S3072x3072.Idx → EReal) := by
  obtain ⟨-, -, -, e0, e1, -⟩ := idx1 t
  funext y
  unfold iblk1
  rw [View.read_apply]
  refine congrArg (V c main_v3 : S3072x3072.Idx → EReal) (funext fun a => Fin.ext ?_)
  match a with
  | ⟨0, _⟩ => show win1_1.index t (0 : Fin 2) * 3072 + 1 * (y 0).val = (y 0).val; omega
  | ⟨1, _⟩ => show win1_1.index t (1 : Fin 2) * 3072 + 1 * (y 1).val = (y 1).val; omega

theorem read1_2 (c : Dev nD) (t : Fin cfg1.N) :
    (iblk1 V c 2 t : Vec Ideal S3072 .f32) = (V c main_arg6 : S3072.Idx → EReal) := by
  obtain ⟨-, -, -, -, -, e0, -⟩ := idx1 t
  funext y
  unfold iblk1
  rw [View.read_apply]
  refine congrArg (V c main_arg6 : S3072.Idx → EReal) (funext fun a => Fin.ext ?_)
  match a with
  | ⟨0, _⟩ => show win1_2.index t (0 : Fin 1) * 3072 + 1 * (y 0).val = (y 0).val; omega

theorem read1_3 (c : Dev nD) (t : Fin cfg1.N) :
    (iblk1 V c 3 t : Vec Ideal S3072x8 .bf16) = (V c main_v5 : S3072x8.Idx → EReal) := by
  obtain ⟨-, -, -, -, -, -, e0, e1, -⟩ := idx1 t
  funext y
  unfold iblk1
  rw [View.read_apply]
  refine congrArg (V c main_v5 : S3072x8.Idx → EReal) (funext fun a => Fin.ext ?_)
  match a with
  | ⟨0, _⟩ => show win1_3.index t (0 : Fin 2) * 3072 + 1 * (y 0).val = (y 0).val; omega
  | ⟨1, _⟩ => show win1_3.index t (1 : Fin 2) * 8 + 1 * (y 1).val = (y 1).val; omega

theorem read1_4 (c : Dev nD) (t : Fin cfg1.N) :
    (iblk1 V c 4 t : Vec Ideal S8 .f32) = (V c main_arg8 : S8.Idx → EReal) := by
  obtain ⟨-, -, -, -, -, -, -, -, e0, -⟩ := idx1 t
  funext y
  unfold iblk1
  rw [View.read_apply]
  refine congrArg (V c main_arg8 : S8.Idx → EReal) (funext fun a => Fin.ext ?_)
  match a with
  | ⟨0, _⟩ => show win1_4.index t (0 : Fin 1) * 8 + 1 * (y 0).val = (y 0).val; omega

/-! ## One tile -/

/-- The entry (p, q, o) a grid point stores is the two layers at the pair (P, Q) its tile places (p, q) at, given that
    its staged tile of activations holds the row (P, Q) at (p, q), and the weights and biases are whole. -/
theorem tile1 (Y : S256x128x3072.Idx → EReal) (W2t : S3072x3072.Idx → EReal) (β2 : S3072.Idx → EReal)
    (W3t : S3072x8.Idx → EReal) (β3 : S8.Idx → EReal)
    (x0 : Vec Ideal S8x32x3072 .bf16) (x1 : Vec Ideal S3072x3072 .bf16) (x2 : Vec Ideal S3072 .f32)
    (x3 : Vec Ideal S3072x8 .bf16) (x4 : Vec Ideal S8 .f32)
    (p : Fin 8) (q : Fin 32) (o : Fin 8) (P : Fin 256) (Q : Fin 128)
    (h0 : ∀ k : Fin 3072, x0 (ix3 p q k) = Y (ix3 P Q k)) (h1 : x1 = W2t) (h2 : x2 = β2) (h3 : x3 = W3t) (h4 : x4 = β3) :
    k1_pay1 (F := Ideal) x0 x1 x2 x3 x4 (ix3 p q o) = affineT (affineT Y W2t β2) W3t β3 (ix3 P Q o) := by
  subst h1 h2 h3 h4
  rw [layer23_pay]
  exact affineT_tile (affineT x0 x1 x2) (affineT Y x1 x2) x3 x4 p q P Q
    (fun k => affineT_tile x0 Y x1 x2 p q P Q h0 k) o

/-- WHAT GRID POINT t WRITES BACK is tile t of the two layers. -/
theorem flushed1 (c : Dev nD) (t : Fin cfg1.N) :
    (dat1 V c).flushed 5 t = ((cfg1.win 5).blk t).view.read (Elt Ideal) (H3 V c) := by
  show (cfg1.win 5).cut (grid1.coords t) ((dat1 V c).after 5 t) = _
  rw [after1_5]
  unfold out1_5
  rw [View.canon_unit_zero hz3]
  simp only [View.ld_unit_zero (S := S8x32x3072) hz3, View.ld_unit_zero (S := S3072x3072) hz2,
    View.ld_unit_zero (S := S3072) hz1, View.ld_unit_zero (S := S3072x8) hz2, View.ld_unit_zero (S := S8) hz1]
  obtain ⟨-, -, -, -, -, -, -, -, -, e0, e1, e2⟩ := idx1 t
  have hN : t.val < 128 := Nat.lt_of_lt_of_eq t.isLt (show cfg1.N = 128 from N_1)
  funext j
  have hj0 : (j 0).val < 8 := (j 0).isLt
  have hj1 : (j 1).val < 32 := (j 1).isLt
  have hj2 : (j 2).val < 8 := (j 2).isLt
  have ej : (cfg1.win 5).xinj (grid1.coords t) j = ix3 (⟨(j 0).val, hj0⟩ : Fin 8) (⟨(j 1).val, hj1⟩ : Fin 32) (⟨(j 2).val, hj2⟩ : Fin 8) :=
    funext fun a => Fin.ext (by
      match a with
      | ⟨0, _⟩ => rfl
      | ⟨1, _⟩ => rfl
      | ⟨2, _⟩ => rfl)
  have eP : ((cfg1.win 5).blk t).view.emb j
      = ix3 (⟨win1_5.index t (0 : Fin 3) * 8 + (j 0).val, by omega⟩ : Fin 256) (⟨win1_5.index t (1 : Fin 3) * 32 + (j 1).val, by omega⟩ : Fin 128)
          (⟨(j 2).val, hj2⟩ : Fin 8) :=
    funext fun a => Fin.ext (by
      match a with
      | ⟨0, _⟩ => show win1_5.index t (0 : Fin 3) * 8 + 1 * (j 0).val = win1_5.index t (0 : Fin 3) * 8 + (j 0).val; omega
      | ⟨1, _⟩ => show win1_5.index t (1 : Fin 3) * 32 + 1 * (j 1).val = win1_5.index t (1 : Fin 3) * 32 + (j 1).val; omega
      | ⟨2, _⟩ => show win1_5.index t (2 : Fin 3) * 8 + 1 * (j 2).val = (j 2).val; omega)
  show k1_pay1 (F := Ideal) (iblk1 V c 0 t) (iblk1 V c 1 t) (iblk1 V c 2 t) (iblk1 V c 3 t) (iblk1 V c 4 t) ((cfg1.win 5).xinj (grid1.coords t) j)
    = H3 V c (((cfg1.win 5).blk t).view.emb j)
  rw [ej, eP]
  exact tile1 (V c main_v6) (V c main_v3) (V c main_arg6) (V c main_v5) (V c main_arg8)
    (iblk1 V c 0 t) (iblk1 V c 1 t) (iblk1 V c 2 t) (iblk1 V c 3 t) (iblk1 V c 4 t) _ _ _ _ _
    (fun k => read1_0 V c t _ _ k _ _ rfl rfl) (read1_1 V c t) (read1_2 V c t) (read1_3 V c t) (read1_4 V c t)

/-! ## The tiles cover the array -/

/-- An index is in grid point t's tile iff each coordinate is in the tile's range on its axis. -/
theorem mem_blk1 (t : Fin cfg1.N) (i : S256x128x8.Idx) :
    i ∈ ((cfg1.win 5).blk t).view.set ↔ ∀ a : Fin 3, win1_5.index t a * S8x32x8.size a ≤ (i a).val ∧ (i a).val < win1_5.index t a * S8x32x8.size a + S8x32x8.size a := by
  show i ∈ ((View.whole main_v7).slice (win1_5.rect t)).set ↔ _
  rw [View.set_slice_whole, Rect.mem_set_unit]
  exact Iff.rfl

/-- Every entry of the array is in the tile of the grid point (i₀ / 8, i₁ / 32). -/
theorem cover1 (i : S256x128x8.Idx) :
    ∃ t : Fin cfg1.N, (cfg1.win 5).flush t = true ∧ i ∈ ((cfg1.win 5).blk t).view.set := by
  have hi0 : (i 0).val < 256 := (i 0).isLt
  have hi1 : (i 1).val < 128 := (i 1).isLt
  have hi2 : (i 2).val < 8 := (i 2).isLt
  refine ⟨⟨(i 0).val / 8 * 4 + (i 1).val / 32, by rw [show cfg1.N = 128 from N_1]; omega⟩, flush1_5 _, ?_⟩
  rw [mem_blk1]
  obtain ⟨-, -, -, -, -, -, -, -, -, e0, e1, e2⟩ := idx1 ⟨(i 0).val / 8 * 4 + (i 1).val / 32, by rw [show cfg1.N = 128 from N_1]; omega⟩
  intro a
  match a with
  | ⟨0, _⟩ =>
    show win1_5.index _ (0 : Fin 3) * 8 ≤ (i 0).val ∧ (i 0).val < win1_5.index _ (0 : Fin 3) * 8 + 8
    rw [e0]; show ((i 0).val / 8 * 4 + (i 1).val / 32) / 4 * 8 ≤ (i 0).val ∧ (i 0).val < ((i 0).val / 8 * 4 + (i 1).val / 32) / 4 * 8 + 8
    omega
  | ⟨1, _⟩ =>
    show win1_5.index _ (1 : Fin 3) * 32 ≤ (i 1).val ∧ (i 1).val < win1_5.index _ (1 : Fin 3) * 32 + 32
    rw [e1]; show ((i 0).val / 8 * 4 + (i 1).val / 32) % 4 * 32 ≤ (i 1).val ∧ (i 1).val < ((i 0).val / 8 * 4 + (i 1).val / 32) % 4 * 32 + 32
    omega
  | ⟨2, _⟩ =>
    show win1_5.index _ (2 : Fin 3) * 8 ≤ (i 2).val ∧ (i 2).val < win1_5.index _ (2 : Fin 3) * 8 + 8
    rw [e2]; omega

/-- THE ARRAY the second kernel leaves. -/
theorem arr1 (c : Dev nD) : (dat1 V c).arrAt 5 cfg1.N = H3 V c :=
  (dat1 V c).arrAt_eq_of_cover 5 (H3 V c) (fun t _ => flushed1 V c t) (cover1)

end Cert.KernelIdeal.Arrays23

end
-- ==== Proof.KernelResult.lean ====
/-
  The idealized kernel's result is the three layers on the features of the arguments.

  Before the first kernel the host transposes the three weight matrices (the change of float format is the identity
  over the extended reals) and touches nothing else. So the first kernel finds the text and user arguments, the
  transposed first weights and the first bias, and leaves the first layer; the second finds that array, the other two
  transposed weight matrices and biases, and leaves layers two and three of it.
-/
import proofs.«118750_j12876311953983_1_alg».proof.Proof.Gen.KernelIdeal.Frame
import proofs.«118750_j12876311953983_1_alg».proof.Proof.Layer1Array
import proofs.«118750_j12876311953983_1_alg».proof.Proof.Layer23Array
import proofs.«118750_j12876311953983_1_alg».proof.Proof.Launched
import Idealize.ShloMosaic.Lib.StableHlo.Run
import Idealize.ShloMosaic.Lib.ValueLayout

noncomputable section

namespace Cert.KernelIdeal.Result

open Cert.KernelIdeal Cert.KernelIdeal.Gen Idealize.ShloMosaic Idealize.ShloMosaic.TcCoe Idealize.SL.Sem
open Idealize.ShloMosaic.ValueIdx Idealize.ShloMosaic.StableHlo Cert.PairMlp
open Idealize.ShloMosaic.Pipeline (Dat)

variable (m : (ℓ : Loc nD τ sig) → Buf (Elt Ideal) ℓ) (ρ : Dev nD → PrngReg)

/-! ## What the first kernel finds -/

theorem found0_arg0 (c : Dev nD) : V1 m ρ c main_arg0 = (m ((c : Thread nD τ).loc main_arg0)) :=
  ((W2_arr m ρ c 0).trans (((dat0 (V1 m ρ) c).arrAt_in 0 rfl _).trans (A_eq0 (V1 m ρ) c 0))).symm.trans
    ((W3_of_ne m ρ c main_arg0 (by decide)).symm.trans (W3_main_arg0 m ρ c))
theorem found0_arg1 (c : Dev nD) : V1 m ρ c main_arg1 = (m ((c : Thread nD τ).loc main_arg1)) :=
  ((W2_arr m ρ c 1).trans (((dat0 (V1 m ρ) c).arrAt_in 1 rfl _).trans (A_eq0 (V1 m ρ) c 1))).symm.trans
    ((W3_of_ne m ρ c main_arg1 (by decide)).symm.trans (W3_main_arg1 m ρ c))
theorem found0_arg2 (c : Dev nD) : V1 m ρ c main_arg2 = (m ((c : Thread nD τ).loc main_arg2)) :=
  ((W2_arr m ρ c 2).trans (((dat0 (V1 m ρ) c).arrAt_in 2 rfl _).trans (A_eq0 (V1 m ρ) c 2))).symm.trans
    ((W3_of_ne m ρ c main_arg2 (by decide)).symm.trans (W3_main_arg2 m ρ c))
theorem found0_arg4 (c : Dev nD) : V1 m ρ c main_arg4 = (m ((c : Thread nD τ).loc main_arg4)) :=
  ((W2_arr m ρ c 4).trans (((dat0 (V1 m ρ) c).arrAt_in 4 rfl _).trans (A_eq0 (V1 m ρ) c 4))).symm.trans
    ((W3_of_ne m ρ c main_arg4 (by decide)).symm.trans (W3_main_arg4 m ρ c))

/-- The host's transposed first-layer weights. -/
theorem found0_w (c : Dev nD) : (W1 m ρ c (Proc.devRef .tc main_v1) : S3072x3072.Idx → EReal)
    = truncf (F := Ideal) .bf16 (transpose S3072x3072 [1, 0] (m ((c : Thread nD τ).loc main_arg3)) transposes_S3072x3072_S3072x3072_1_0) bitsLt_bf16_f32 := by
  show StableHlo.after hostOps0 (W0 m ρ c) (Proc.devRef .tc main_v1) = _
  after_results

theorem found0_w_at (c : Dev nD) (k n : Fin 3072) :
    (V1 m ρ c main_v1 : S3072x3072.Idx → EReal) (ix2 k n) = ((m ((c : Thread nD τ).loc main_arg3)) : S3072x3072.Idx → EReal) (ix2 n k) := by
  show (W1 m ρ c (Proc.devRef .tc main_v1) : S3072x3072.Idx → EReal) (ix2 k n) = _
  rw [found0_w, truncf_apply, transpose_ix2_apply]

/-! ## What the second kernel finds -/

/-- The array the first kernel left. -/
theorem found1_y (c : Dev nD) : V2 m ρ c main_v6 = (dat0 (V1 m ρ) c).arrAt 5 cfg0.N := W2_arr m ρ c 5

theorem found1_arg6 (c : Dev nD) : V2 m ρ c main_arg6 = (m ((c : Thread nD τ).loc main_arg6)) :=
  ((W3_arr m ρ c 2).trans (((dat1 (V2 m ρ) c).arrAt_in 2 rfl _).trans (A_eq1 (V2 m ρ) c 2))).symm.trans (W3_main_arg6 m ρ c)
theorem found1_arg8 (c : Dev nD) : V2 m ρ c main_arg8 = (m ((c : Thread nD τ).loc main_arg8)) :=
  ((W3_arr m ρ c 4).trans (((dat1 (V2 m ρ) c).arrAt_in 4 rfl _).trans (A_eq1 (V2 m ρ) c 4))).symm.trans (W3_main_arg8 m ρ c)

/-- The host's transposed second-layer weights: the first kernel does not touch them. -/
theorem found1_w2 (c : Dev nD) : (W2 m ρ c (Proc.devRef .tc main_v3) : S3072x3072.Idx → EReal)
    = truncf (F := Ideal) .bf16 (transpose S3072x3072 [1, 0] (m ((c : Thread nD τ).loc main_arg5)) transposes_S3072x3072_S3072x3072_1_0) bitsLt_bf16_f32 := by
  rw [W2_of_ne m ρ c main_v3 (by decide)]
  show StableHlo.after hostOps0 (W0 m ρ c) (Proc.devRef .tc main_v3) = _
  after_results

theorem found1_w2_at (c : Dev nD) (k n : Fin 3072) :
    (V2 m ρ c main_v3 : S3072x3072.Idx → EReal) (ix2 k n) = ((m ((c : Thread nD τ).loc main_arg5)) : S3072x3072.Idx → EReal) (ix2 n k) := by
  show (W2 m ρ c (Proc.devRef .tc main_v3) : S3072x3072.Idx → EReal) (ix2 k n) = _
  rw [found1_w2, truncf_apply, transpose_ix2_apply]

/-- The host's transposed third-layer weights. -/
theorem found1_w3 (c : Dev nD) : (W2 m ρ c (Proc.devRef .tc main_v5) : S3072x8.Idx → EReal)
    = truncf (F := Ideal) .bf16 (transpose S3072x8 [1, 0] (m ((c : Thread nD τ).loc main_arg7)) transposes_S8x3072_S3072x8_1_0) bitsLt_bf16_f32 := by
  rw [W2_of_ne m ρ c main_v5 (by decide)]
  show StableHlo.after hostOps0 (W0 m ρ c) (Proc.devRef .tc main_v5) = _
  after_results

theorem found1_w3_at (c : Dev nD) (k : Fin 3072) (n : Fin 8) :
    (V2 m ρ c main_v5 : S3072x8.Idx → EReal) (ix2 k n) = ((m ((c : Thread nD τ).loc main_arg7)) : S8x3072.Idx → EReal) (ix2 n k) := by
  show (W2 m ρ c (Proc.devRef .tc main_v5) : S3072x8.Idx → EReal) (ix2 k n) = _
  rw [found1_w3, truncf_apply, transpose_ix2_apply]

/-! ## The result -/

/-- What the second kernel's write-backs leave in the result array: the three layers on the arguments' features. -/
theorem result (c : Dev nD) :
    (dat1 (V2 m ρ) c).arrAt 5 cfg1.N = mlp (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  (Arrays23.arr1 (V2 m ρ) c).trans (two_stage (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
    (V1 m ρ c main_arg0) (V1 m ρ c main_arg1) (V1 m ρ c main_arg2) (V1 m ρ c main_v1) (V1 m ρ c main_arg4)
    (V2 m ρ c main_v6) (V2 m ρ c main_v3) (V2 m ρ c main_arg6) (V2 m ρ c main_v5) (V2 m ρ c main_arg8)
    (found0_arg0 m ρ c) (found0_arg1 m ρ c) (found0_arg2 m ρ c) (found0_w_at m ρ c) (found0_arg4 m ρ c)
    ((found1_y m ρ c).trans (Arrays.arr0 (V1 m ρ) c))
    (found1_w2_at m ρ c) (found1_arg6 m ρ c) (found1_w3_at m ρ c) (found1_arg8 m ρ c))

/-- The idealized kernel's run: it ends with the result array at the three layers on the features of the arguments,
    and the arguments as launched. -/
theorem run : θ_run defs (onTc (τ := τ) (main (F := Ideal))) ⟨m, fun _ => 0, ρ⟩ (fun r => ∀ c : Dev nD,
      r.2.mem ((c.tc : Thread nD τ).loc main_v7) = mlp (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h c).1.trans (result m ρ c), (h c).2⟩) (Launched.run_result m ρ)

end Cert.KernelIdeal.Result

end
-- ==== Proof.RefLayers.lean ====
/-
  The reference computes the three layers on the features.

  Stage by stage: the two concatenations and the two broadcasts build the features of every pair; each `dot_general`
  contracts the last axis of its left operand with the second axis of the weights [N, K], so with the bias added it
  is an affine layer over the weights as given.
-/
import proofs.«118750_j12876311953983_1_alg».proof.Proof.Gen.ReferenceIdeal.Read
import proofs.«118750_j12876311953983_1_alg».proof.Proof.PairMlp
import proofs.«118750_j12876311953983_1_alg».proof.Proof.TileLayout

noncomputable section

open scoped BigOperators

namespace Cert.ReferenceIdeal.Layers

open Cert.ReferenceIdeal Cert.ReferenceIdeal.Gen Cert.ReferenceIdeal.Read Idealize.ShloMosaic Idealize.ShloMosaic.ValueIdx
open Cert.PairMlp Cert.TileLayout

/-- The reference's concatenated, broadcast input is the features of every pair. -/
theorem features_eq (x0 x1 : S256x1024.Idx → EReal) (x2 : S128x1024.Idx → EReal) :
    val_main_v7 (F := Ideal) x0 x1 x2 = feat x0 x1 x2 := by
  funext j
  obtain ⟨t, u, k, rfl⟩ : ∃ (t : Fin 256) (u : Fin 128) (k : Fin 3072), j = ix3 t u k := ⟨j 0, j 1, j 2, eq_ix3 j⟩
  unfold val_main_v7 feat
  by_cases h2 : k.val < 2048
  · rw [cat3_left _ _ _ t u k h2, val_main_v4_apply, val_main_v3_apply]
    have e : idx_main_v3 (idx_main_v4 (ix3 t u (⟨k.val, h2⟩ : Fin 2048))) = ix2 t (⟨k.val, h2⟩ : Fin 2048) :=
      funext fun a => Fin.ext (by
        match a with
        | ⟨0, _⟩ => rfl
        | ⟨1, _⟩ => rfl)
    rw [e]
    unfold val_main_v2
    by_cases h1 : k.val < 1024
    · rw [dif_pos (show ((ix3 t u k) 2).val < 1024 from h1), cat2_left _ _ _ t ⟨k.val, h2⟩ h1, val_main_v0_apply]
      rfl
    · rw [dif_neg (show ¬((ix3 t u k) 2).val < 1024 from h1), dif_pos (show ((ix3 t u k) 2).val < 2048 from h2),
        cat2_right _ _ _ t ⟨k.val, h2⟩ (Nat.le_of_not_lt h1) (by show k.val - 1024 < 1024; omega), val_main_v1_apply]
      rfl
  · have h1 : ¬k.val < 1024 := fun h => h2 (by omega)
    rw [dif_neg (show ¬((ix3 t u k) 2).val < 1024 from h1), dif_neg (show ¬((ix3 t u k) 2).val < 2048 from h2),
      cat3_right _ _ _ t u k (Nat.le_of_not_lt h2) (by have := k.isLt; show k.val - 2048 < 1024; omega),
      val_main_v6_apply, val_main_v5_apply]
    exact congrArg x2 (funext fun a => Fin.ext (by
      match a with
      | ⟨0, _⟩ => rfl
      | ⟨1, _⟩ => rfl))

/-- The first `dot_general` and its bias: the first layer. -/
theorem layer1_eq (x0 x1 : S256x1024.Idx → EReal) (x2 : S128x1024.Idx → EReal) (x3 : S3072x3072.Idx → EReal) (x4 : S3072.Idx → EReal) :
    val_main_v11 (F := Ideal) x0 x1 x2 x3 x4 = affine (val_main_v7 (F := Ideal) x0 x1 x2) x3 x4 := by
  funext i
  rw [val_main_v11_apply, val_main_v8_apply, val_main_v10_apply, val_main_v9_apply]
  unfold affine
  have el : ∀ k : Fin 3072, lidx_main_v8 i k = ix3 (i 0) (i 1) k := fun k => funext fun a => Fin.ext (by
    match a with
    | ⟨0, _⟩ => rfl
    | ⟨1, _⟩ => rfl
    | ⟨2, _⟩ => rfl)
  have er : ∀ k : Fin 3072, ridx_main_v8 i k = ix2 (i 2) k := fun k => funext fun a => Fin.ext (by
    match a with
    | ⟨0, _⟩ => rfl
    | ⟨1, _⟩ => rfl)
  have eb : idx_main_v9 (idx_main_v10 i) = ix1 (i 2) := funext fun a => Fin.ext (by
    match a with
    | ⟨0, _⟩ => rfl)
  rw [eb]
  exact congrArg (· + x4 (ix1 (i 2))) (Finset.sum_congr rfl fun k _ => by rw [el k, er k]; rfl)

/-- The second `dot_general` and its bias: the second layer. -/
theorem layer2_eq (x0 x1 : S256x1024.Idx → EReal) (x2 : S128x1024.Idx → EReal) (x3 : S3072x3072.Idx → EReal) (x4 : S3072.Idx → EReal)
    (x5 : S3072x3072.Idx → EReal) (x6 : S3072.Idx → EReal) :
    val_main_v15 (F := Ideal) x0 x1 x2 x3 x4 x5 x6 = affine (val_main_v11 (F := Ideal) x0 x1 x2 x3 x4) x5 x6 := by
  funext i
  rw [val_main_v15_apply, val_main_v12_apply, val_main_v14_apply, val_main_v13_apply]
  unfold affine
  have el : ∀ k : Fin 3072, lidx_main_v12 i k = ix3 (i 0) (i 1) k := fun k => funext fun a => Fin.ext (by
    match a with
    | ⟨0, _⟩ => rfl
    | ⟨1, _⟩ => rfl
    | ⟨2, _⟩ => rfl)
  have er : ∀ k : Fin 3072, ridx_main_v12 i k = ix2 (i 2) k := fun k => funext fun a => Fin.ext (by
    match a with
    | ⟨0, _⟩ => rfl
    | ⟨1, _⟩ => rfl)
  have eb : idx_main_v13 (idx_main_v14 i) = ix1 (i 2) := funext fun a => Fin.ext (by
    match a with
    | ⟨0, _⟩ => rfl)
  rw [eb]
  exact congrArg (· + x6 (ix1 (i 2))) (Finset.sum_congr rfl fun k _ => by rw [el k, er k]; rfl)

/-- The third `dot_general` and its bias: the third layer. -/
theorem layer3_eq (x0 x1 : S256x1024.Idx → EReal) (x2 : S128x1024.Idx → EReal) (x3 : S3072x3072.Idx → EReal) (x4 : S3072.Idx → EReal)
    (x5 : S3072x3072.Idx → EReal) (x6 : S3072.Idx → EReal) (x7 : S8x3072.Idx → EReal) (x8 : S8.Idx → EReal) :
    val_main_v19 (F := Ideal) x0 x1 x2 x3 x4 x5 x6 x7 x8 = affine (val_main_v15 (F := Ideal) x0 x1 x2 x3 x4 x5 x6) x7 x8 := by
  funext i
  rw [val_main_v19_apply, val_main_v16_apply, val_main_v18_apply, val_main_v17_apply]
  unfold affine
  have el : ∀ k : Fin 3072, lidx_main_v16 i k = ix3 (i 0) (i 1) k := fun k => funext fun a => Fin.ext (by
    match a with
    | ⟨0, _⟩ => rfl
    | ⟨1, _⟩ => rfl
    | ⟨2, _⟩ => rfl)
  have er : ∀ k : Fin 3072, ridx_main_v16 i k = ix2 (i 2) k := fun k => funext fun a => Fin.ext (by
    match a with
    | ⟨0, _⟩ => rfl
    | ⟨1, _⟩ => rfl)
  have eb : idx_main_v17 (idx_main_v18 i) = ix1 (i 2) := funext fun a => Fin.ext (by
    match a with
    | ⟨0, _⟩ => rfl)
  rw [eb]
  exact congrArg (· + x8 (ix1 (i 2))) (Finset.sum_congr rfl fun k _ => by rw [el k, er k]; rfl)

/-- THE REFERENCE'S RESULT is the three layers on the features. -/
theorem result_eq (x0 x1 : S256x1024.Idx → EReal) (x2 : S128x1024.Idx → EReal) (x3 : S3072x3072.Idx → EReal) (x4 : S3072.Idx → EReal)
    (x5 : S3072x3072.Idx → EReal) (x6 : S3072.Idx → EReal) (x7 : S8x3072.Idx → EReal) (x8 : S8.Idx → EReal) :
    val_main_v19 (F := Ideal) x0 x1 x2 x3 x4 x5 x6 x7 x8 = mlp x0 x1 x2 x3 x4 x5 x6 x7 x8 := by
  rw [layer3_eq, layer2_eq, layer1_eq, features_eq]
  rfl

end Cert.ReferenceIdeal.Layers

end
-- ==== Proof.lean ====
/-
  The certificate: a two-kernel pairwise MLP against its three-einsum reference.

  For every text row t and user row u the programs form the feature vector (min(a[t], b[t]), max(a[t], b[t]), user[u]) of
  length 3072 and apply three affine layers, y ↦ y · Wᵀ + β. The reference does it with three whole contractions. The
  kernel program transposes the weights on the host, and runs two kernels over a 32 × 4 grid of tiles of 8 × 32 pairs:
  the first builds a tile's features and applies layer one, the second applies layers two and three to the tile the
  first left. Over the extended reals a change of float format is the identity and a matrix product into a zero
  accumulator is the plain sum, so each tile entry is the layer's sum for its pair, term for term the reference's: no
  law beyond reindexing a sum is used, and the inputs' finiteness is never opened.
  `preserves` is trivial: the idealization rewrote nothing.
-/
import proofs.«118750_j12876311953983_1_alg».proof.Defs
import proofs.«118750_j12876311953983_1_alg».proof.Proof.Gen.Kernel
import proofs.«118750_j12876311953983_1_alg».proof.Proof.Gen.Kernel.Skeleton
import proofs.«118750_j12876311953983_1_alg».proof.Proof.Gen.Kernel.Launch
import proofs.«118750_j12876311953983_1_alg».proof.Proof.Gen.Kernel.Points
import proofs.«118750_j12876311953983_1_alg».proof.Proof.Gen.Kernel.Frame
import proofs.«118750_j12876311953983_1_alg».proof.Proof.Gen.KernelIdeal
import proofs.«118750_j12876311953983_1_alg».proof.Proof.Gen.KernelIdeal.Skeleton
import proofs.«118750_j12876311953983_1_alg».proof.Proof.Gen.KernelIdeal.Launch
import proofs.«118750_j12876311953983_1_alg».proof.Proof.Gen.KernelIdeal.Points
import proofs.«118750_j12876311953983_1_alg».proof.Proof.Gen.KernelIdeal.Frame
import proofs.«118750_j12876311953983_1_alg».proof.Proof.Gen.ReferenceIdeal
import proofs.«118750_j12876311953983_1_alg».proof.Proof.Gen.Pre_finite_inputs
import proofs.«118750_j12876311953983_1_alg».proof.Proof.Gen.ReferenceIdeal.Run
import proofs.«118750_j12876311953983_1_alg».proof.Proof.Gen.ReferenceIdeal.Read
import proofs.«118750_j12876311953983_1_alg».proof.Proof.KernelResult
import proofs.«118750_j12876311953983_1_alg».proof.Proof.RefLayers
import Idealize.ShloMosaic.Adequacy
import Idealize.ShloMosaic.Init

noncomputable section

namespace Cert.Proof

open Idealize.ShloMosaic Idealize.ShloMosaic.TcCoe Idealize.SL.Sem

/-- The kernel program as printed runs, and leaves its arguments. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- The reference runs and leaves its arguments: its run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing was rewritten in the idealization. -/
theorem preserves : Cert.preserves_Kernel_KernelIdeal := trivial

/-- From memories that agree on the arguments, both programs end with the three layers on the arguments' features in
    their result arrays. -/
theorem algebraic : Cert.algebraic_KernelIdeal_ReferenceIdeal := by
  intro m ρ m' ρ' _ hagree
  refine ⟨fun c => Cert.PairMlp.mlp (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)),
    Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8⟩ := hagree c
  rw [h0, h1, h2, h3, h4, h5, h6, h7, h8, Cert.ReferenceIdeal.Read.val_main_v19_eq, Cert.ReferenceIdeal.Layers.result_eq]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
